-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x4096 : Shape := ⟨3, ![2, 512, 4096]⟩
abbrev S11008x4096 : Shape := ⟨2, ![11008, 4096]⟩
abbrev S704512 : Shape := ⟨1, ![704512]⟩
abbrev S11008 : Shape := ⟨1, ![11008]⟩
abbrev S_ : Shape := ⟨0, ![]⟩

class Facts : Prop where
  bcast_S_S2x512x4096 : S_.BroadcastsInDim S2x512x4096 (![] : Fin 0 → Fin S2x512x4096.rank)
  reducesTo_S2x512x4096_S_d0_1_2 : S2x512x4096.ReducesTo [0, 1, 2] S_
  h_S_ : 0 < S_.numel
  bcast_S_S704512 : S_.BroadcastsInDim S704512 (![] : Fin 0 → Fin S704512.rank)
  reducesTo_S704512_S_d0 : S704512.ReducesTo [0] S_
  bcast_S_S11008 : S_.BroadcastsInDim S11008 (![] : Fin 0 → Fin S11008.rank)
  reducesTo_S11008_S_d0 : S11008.ReducesTo [0] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg1 : IVec S11008x4096 32) (main_v13 : IVec S_ 1) (main_v15 : IVec S11008x4096 1) (main_c_5 : IVec S_ 32) : IVec S_ 1 :=
  let main_v16 : IVec S11008x4096 32 := broadcastInDim S11008x4096 ![] bcast_S_S11008x4096 main_c_5
  let main_v17 : IVec S11008x4096 1 := cmpi .slt main_arg1 main_v16
  let main_v18 : IVec S11008x4096 1 := andi main_v15 main_v17
  let main_c_6 : IVec S_ 1 := constantI S_ 1 1#1
  let main_v19 : IVec S_ 1 := (fun x v => Host.reduce IntOp.andi x v reducesTo_S11008x4096_S_d0_1 h_S_) main_v18 main_c_6
  let main_v20 : IVec S_ 1 := andi main_v13 main_v19
  main_v20

def fn {F : FTy → Type} [FloatOps F] (main_arg0 : FVec F S2x512x4096 .f32) (main_arg1 : IVec S11008x4096 32) (main_arg2 : FVec F S704512 .f32) (main_arg3 : FVec F S11008 .f32) : IVec S_ 1 :=
  let main_v0 : FVec F S2x512x4096 .f32 := Host.absf main_arg0
  let main_cst : FVec F S_ .f32 := constant S_ .f32 0x7F800000#32
  let main_v1 : FVec F S2x512x4096 .f32 := broadcastInDim S2x512x4096 ![] bcast_S_S2x512x4096 main_cst
  let main_v2 : IVec S2x512x4096 1 := cmpf .olt main_v0 main_v1
  let main_c : IVec S_ 1 := constantI S_ 1 1#1
  let main_v3 : IVec S_ 1 := (fun x v => Host.reduce IntOp.andi x v reducesTo_S2x512x4096_S_d0_1_2 h_S_) main_v2 main_c
  let main_v4 : FVec F S704512 .f32 := Host.absf main_arg2
  let main_cst_0 : FVec F S_ .f32 := constant S_ .f32 0x7F800000#32
  let main_v5 : FVec F S704512 .f32 := broadcastInDim S704512 ![] bcast_S_S704512 main_cst_0
  let main_v6 : IVec S704512 1 := cmpf .olt main_v4 main_v5
  let main_c_1 : IVec S_ 1 := constantI S_ 1 1#1
  let main_v7 : IVec S_ 1 := (fun x v => Host.reduce IntOp.andi x v reducesTo_S704512_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_c_4 : IVec S_ 32 := constantI S_ 32 0#32
  let main_v14 : IVec S11008x4096 32 := broadcastInDim S11008x4096 ![] bcast_S_S11008x4096 main_c_4
  let main_v15 : IVec S11008x4096 1 := cmpi .sge main_arg1 main_v14
  let main_c_5 : IVec S_ 32 := constantI S_ 32 16#32
  fn_part1 (F := F) main_arg1 main_v13 main_v15 main_c_5
-- ==== Kernel.lean ====
abbrev S2x512x4096 : Shape := ⟨3, ![2, 512, 4096]⟩
abbrev S11008x4096 : Shape := ⟨2, ![11008, 4096]⟩
abbrev S704512 : Shape := ⟨1, ![704512]⟩
abbrev S11008 : Shape := ⟨1, ![11008]⟩
abbrev S1024x4096 : Shape := ⟨2, ![1024, 4096]⟩
abbrev S11008x64 : Shape := ⟨2, ![11008, 64]⟩
abbrev S1x11008 : Shape := ⟨2, ![1, 11008]⟩
abbrev S64 : Shape := ⟨1, ![64]⟩
abbrev S64x1 : Shape := ⟨2, ![64, 1]⟩
abbrev S4096 : Shape := ⟨1, ![4096]⟩
abbrev S1x4096 : Shape := ⟨2, ![1, 4096]⟩
abbrev S_ : Shape := ⟨0, ![]⟩
abbrev S64x4096 : Shape := ⟨2, ![64, 4096]⟩
abbrev S1024x11008 : Shape := ⟨2, ![1024, 11008]⟩
abbrev S256x4096 : Shape := ⟨2, ![256, 4096]⟩
abbrev S256x64 : Shape := ⟨2, ![256, 64]⟩
abbrev S1x256 : Shape := ⟨2, ![1, 256]⟩
abbrev S1024x256 : Shape := ⟨2, ![1024, 256]⟩
abbrev S256x512 : Shape := ⟨2, ![256, 512]⟩
abbrev S1024x512 : Shape := ⟨2, ![1024, 512]⟩
abbrev S2x512x11008 : Shape := ⟨3, ![2, 512, 11008]⟩

abbrev nBuf : Space → Nat
  | .hbm => 36
  | .vmem => 11
  | .smem => 0
  | _ => 0

abbrev bufTy : (tb : Table) → Fin (tcTables nBuf tb) → BufTy
  | .hbm, ⟨0, _⟩ => ⟨S2x512x4096, .f32⟩
  | .hbm, ⟨1, _⟩ => ⟨S11008x4096, .i32⟩
  | .hbm, ⟨2, _⟩ => ⟨S704512, .f32⟩
  | .hbm, ⟨3, _⟩ => ⟨S11008, .f32⟩
  | .hbm, ⟨4, _⟩ => ⟨S1024x4096, .f32⟩
  | .hbm, ⟨5, _⟩ => ⟨S1024x4096, .bf16⟩
  | .hbm, ⟨6, _⟩ => ⟨S11008x64, .f32⟩
  | .hbm, ⟨7, _⟩ => ⟨S1x11008, .f32⟩
  | .hbm, ⟨8, _⟩ => ⟨S64, .i32⟩
  | .hbm, ⟨9, _⟩ => ⟨S64x1, .i32⟩
  | .hbm, ⟨10, _⟩ => ⟨S4096, .i32⟩
  | .hbm, ⟨11, _⟩ => ⟨S1x4096, .i32⟩
  | .hbm, ⟨12, _⟩ => ⟨S_, .i32⟩
  | .hbm, ⟨13, _⟩ => ⟨S_, .i32⟩
  | .hbm, ⟨14, _⟩ => ⟨S1x4096, .i32⟩
  | .hbm, ⟨15, _⟩ => ⟨S1x4096, .i32⟩
  | .hbm, ⟨16, _⟩ => ⟨S1x4096, .i32⟩
  | .hbm, ⟨17, _⟩ => ⟨S_, .i32⟩
  | .hbm, ⟨18, _⟩ => ⟨S1x4096, .i32⟩
  | .hbm, ⟨19, _⟩ => ⟨S1x4096, .i1⟩
  | .hbm, ⟨20, _⟩ => ⟨S1x4096, .i32⟩
  | .hbm, ⟨21, _⟩ => ⟨S1x4096, .i32⟩
  | .hbm, ⟨22, _⟩ => ⟨S_, .i32⟩
  | .hbm, ⟨23, _⟩ => ⟨S1x4096, .i32⟩
  | .hbm, ⟨24, _⟩ => ⟨S1x4096, .i1⟩
  | .hbm, ⟨25, _⟩ => ⟨S1x4096, .i1⟩
  | .hbm, ⟨26, _⟩ => ⟨S_, .i32⟩
  | .hbm, ⟨27, _⟩ => ⟨S1x4096, .i32⟩
  | .hbm, ⟨28, _⟩ => ⟨S1x4096, .i32⟩
  | .hbm, ⟨29, _⟩ => ⟨S1x4096, .i32⟩
  | .hbm, ⟨30, _⟩ => ⟨S64x4096, .i32⟩
  | .hbm, ⟨31, _⟩ => ⟨S64x4096, .i32⟩
  | .hbm, ⟨32, _⟩ => ⟨S64x4096, .i1⟩
  | .hbm, ⟨33, _⟩ => ⟨S64x4096, .f32⟩
  | .hbm, ⟨34, _⟩ => ⟨S1024x11008, .f32⟩
  | .hbm, ⟨35, _⟩ => ⟨S2x512x11008, .f32⟩
  | .local _ .vmem, ⟨0, _⟩ => ⟨S1024x4096, .bf16⟩
  | .local _ .vmem, ⟨1, _⟩ => ⟨S256x4096, .i32⟩
  | .local _ .vmem, ⟨2, _⟩ => ⟨S256x4096, .i32⟩
  | .local _ .vmem, ⟨3, _⟩ => ⟨S256x64, .f32⟩
  | .local _ .vmem, ⟨4, _⟩ => ⟨S256x64, .f32⟩
  | .local _ .vmem, ⟨5, _⟩ => ⟨S1x256, .f32⟩
  | .local _ .vmem, ⟨6, _⟩ => ⟨S1x256, .f32⟩
  | .local _ .vmem, ⟨7, _⟩ => ⟨S64x4096, .f32⟩
  | .local _ .vmem, ⟨8, _⟩ => ⟨S1024x256, .f32⟩
  | .local _ .vmem, ⟨9, _⟩ => ⟨S1024x256, .f32⟩
  | .local _ .vmem, ⟨10, _⟩ => ⟨S256x4096, .f32⟩
  | _, _ => ⟨S2x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![43], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v16 : BitVec 32 := Scalar.muli arg8 c512_i32
  v16
def k0_off1 (k0_t1 : Fin k0_t1_loop.trips) : Fin 2 → Nat :=
  let c0_11 : Index := 0#32
  let c0_i32 : BitVec 32 := 0#32
  let c1_i32 : BitVec 32 := 1#32
  let arg8 : BitVec 32 := Scf.iv c0_i32 c1_i32 k0_t1
  let c512_i32 : BitVec 32 := 512#32
  let v16 : BitVec 32 := Scalar.muli arg8 c512_i32
  let v17 : BitVec 32 := v16
  let v18 : Index := Scalar.indexCast v17
  ![0, v18.toNat]
def k0_off2 (k0_t1 : Fin k0_t1_loop.trips) : Fin 2 → Nat :=
  let c0_35 : Index := 0#32
  let c0_i32 : BitVec 32 := 0#32
  let c1_i32 : BitVec 32 := 1#32
  let arg8 : BitVec 32 := Scf.iv c0_i32 c1_i32 k0_t1
  let c512_i32 : BitVec 32 := 512#32
  let v16 : BitVec 32 := Scalar.muli arg8 c512_i32
  let v17 : BitVec 32 := v16
  let v71 : Index := Scalar.indexCast v17
  ![0, v71.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x512x4096_S1024x4096 : S2x512x4096.ShapeCasts S1024x4096
  bitsLt_bf16_f32 : FTy.bits .bf16 < FTy.bits .f32
  shapeCasts_S704512_S11008x64 : S704512.ShapeCasts S11008x64
  shapeCasts_S11008_S1x11008 : S11008.ShapeCasts S1x11008
  bcast_S64_S64x1_0 : S64.BroadcastsInDim S64x1 (![0] : Fin 1 → Fin S64x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S64x4096_0_1 : S1x4096.BroadcastsInDim S64x4096 (![0, 1] : Fin 2 → Fin S64x4096.rank)
  bcast_S64x1_S64x4096_0_1 : S64x1.BroadcastsInDim S64x4096 (![0, 1] : Fin 2 → Fin S64x4096.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  h_S256x512 : 0 < S256x512.numel
  h_S1024x512 : 0 < S1024x512.numel
  shapeCasts_S1024x512_S1024x512 : S1024x512.ShapeCasts S1024x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x11008_S2x512x11008 : S1024x11008.ShapeCasts S2x512x11008
  dot_S256x64_S64x4096_S256x4096_1_0_0_1_n_n_wf : DotDims.WF S256x64 S64x4096 S256x4096 [1] [0] [0] [1] [] []
  dot_S1024x512_S256x512_S1024x256_1_1_0_0_n_n_wf : DotDims.WF S1024x512 S256x512 S1024x256 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S256x512.size a ≤ S256x4096.size a
  k0_off2_inb : ∀ k0_t1 : Fin k0_t1_loop.trips, ∀ a, (k0_off2 k0_t1) a + S1024x512.size a ≤ S1024x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S11008x64.size a
  hwx0_2 : ∀ i : grid0.Coords, EltTy.bits .f32 = 32 ∨ (Rect.block (s := S11008x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x4096.size a
  hwx0_4 : ∀ i : grid0.Coords, EltTy.bits .f32 = 32 ∨ (Rect.block (s := S64x4096) S64x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x11008.size a
  hwx0_5 : ∀ i : grid0.Coords, EltTy.bits .f32 = 32 ∨ (Rect.block (s := S1024x11008) S1024x256.size (cc0_transform_5 i) (hinb0_5 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf

abbrev win0_0 : Pipeline.Window sig grid0 :=
  Pipeline.Window.ofSpec (Memref.whole main_v1) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x512x4096 : Shape := ⟨3, ![2, 512, 4096]⟩
abbrev S11008x4096 : Shape := ⟨2, ![11008, 4096]⟩
abbrev S704512 : Shape := ⟨1, ![704512]⟩
abbrev S11008 : Shape := ⟨1, ![11008]⟩
abbrev S16 : Shape := ⟨1, ![16]⟩
abbrev S_ : Shape := ⟨0, ![]⟩
abbrev S11008x4096x1 : Shape := ⟨3, ![11008, 4096, 1]⟩
abbrev S704512x1 : Shape := ⟨2, ![704512, 1]⟩
abbrev S704512x64 : Shape := ⟨2, ![704512, 64]⟩
abbrev S2x512x11008 : Shape := ⟨3, ![2, 512, 11008]⟩
abbrev S1x1x11008 : Shape := ⟨3, ![1, 1, 11008]⟩

abbrev nBuf : Space → Nat
  | .hbm => 23
  | .vmem => 0
  | .smem => 0
  | _ => 0

abbrev bufTy : (tb : Table) → Fin (tcTables nBuf tb) → BufTy
  | .hbm, ⟨0, _⟩ => ⟨S2x512x4096, .f32⟩
  | .hbm, ⟨1, _⟩ => ⟨S11008x4096, .i32⟩
  | .hbm, ⟨2, _⟩ => ⟨S704512, .f32⟩
  | .hbm, ⟨3, _⟩ => ⟨S11008, .f32⟩
  | .hbm, ⟨4, _⟩ => ⟨S16, .f32⟩
  | .hbm, ⟨5, _⟩ => ⟨S_, .i32⟩
  | .hbm, ⟨6, _⟩ => ⟨S11008x4096, .i32⟩
  | .hbm, ⟨7, _⟩ => ⟨S11008x4096, .i1⟩
  | .hbm, ⟨8, _⟩ => ⟨S_, .i32⟩
  | .hbm, ⟨9, _⟩ => ⟨S11008x4096, .i32⟩
  | .hbm, ⟨10, _⟩ => ⟨S11008x4096, .i32⟩
  | .hbm, ⟨11, _⟩ => ⟨S11008x4096, .i32⟩
  | .hbm, ⟨12, _⟩ => ⟨S11008x4096x1, .i32⟩
  | .hbm, ⟨13, _⟩ => ⟨S11008x4096, .f32⟩
  | .hbm, ⟨14, _⟩ => ⟨S704512x1, .f32⟩
  | .hbm, ⟨15, _⟩ => ⟨S704512x64, .f32⟩
  | .hbm, ⟨16, _⟩ => ⟨S704512x64, .f32⟩
  | .hbm, ⟨17, _⟩ => ⟨S704512x64, .f32⟩
  | .hbm, ⟨18, _⟩ => ⟨S11008x4096, .f32⟩
  | .hbm, ⟨19, _⟩ => ⟨S2x512x11008, .f32⟩
  | .hbm, ⟨20, _⟩ => ⟨S1x1x11008, .f32⟩
  | .hbm, ⟨21, _⟩ => ⟨S2x512x11008, .f32⟩
  | .hbm, ⟨22, _⟩ => ⟨S2x512x11008, .f32⟩
  | _, _ => ⟨S2x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008x4096_S11008x4096x1_0_1 : S11008x4096.BroadcastsInDim S11008x4096x1 (![0, 1] : Fin 2 → Fin S11008x4096x1.rank)
  shapeCasts_S704512_S704512x1 : S704512.ShapeCasts S704512x1
  shapeCasts_S11008x4096_S704512x64 : S11008x4096.ShapeCasts S704512x64
  bcast_S704512x1_S704512x64_0_1 : S704512x1.BroadcastsInDim S704512x64 (![0, 1] : Fin 2 → Fin S704512x64.rank)
  shapeCasts_S704512x64_S11008x4096 : S704512x64.ShapeCasts S11008x4096
  bcast_S11008_S1x1x11008_2 : S11008.BroadcastsInDim S1x1x11008 (![2] : Fin 1 → Fin S1x1x11008.rank)
  bcast_S1x1x11008_S2x512x11008_0_1_2 : S1x1x11008.BroadcastsInDim S2x512x11008 (![0, 1, 2] : Fin 3 → Fin S2x512x11008.rank)
  gather_S16_S11008x4096x1_S11008x4096_n_0_n_n_0_2_1_wf : GatherDims.WF S16 S11008x4096x1 S11008x4096 [] [0] [] [0] [] 2 ![1]
  dot_S2x512x4096_S11008x4096_S2x512x11008_2_1_01_0_n_n_wf : DotDims.WF S2x512x4096 S11008x4096 S2x512x11008 [2] [1] [0, 1] [0] [] []

variable [Facts₀]

def gather_S16_S11008x4096x1_S11008x4096_n_0_n_n_0_2_1 : GatherDims S16 S11008x4096x1 S11008x4096 where
  offsetDims := []
  collapsedSliceDims := [0]
  operandBatchingDims := []
  startIndicesBatchingDims := []
  startIndexMap := [0]
  indexVectorDim := 2
  sliceSizes := ![1]
  wf := gather_S16_S11008x4096x1_S11008x4096_n_0_n_n_0_2_1_wf
def dot_S2x512x4096_S11008x4096_S2x512x11008_2_1_01_0_n_n : DotDims S2x512x4096 S11008x4096 S2x512x11008 where
  lhsContracting := [2]
  rhsContracting := [1]
  lhsNonContracting := [0, 1]
  rhsNonContracting := [0]
  lhsBatch := []
  rhsBatch := []
  wf := dot_S2x512x4096_S11008x4096_S2x512x11008_2_1_01_0_n_n_wf

class Facts : Prop extends Facts₀ where

variable [Facts]
-- ==== Proof.Spec.lean ====
/-
  The mathematics of the certificate, free of any program text.

  A weight entry is a codebook value times a per-block scale: entry (o, i) of the weight is
  `code (index (o, i)) * absmax (64·o + i / 64)`, the sixteen codebook values being fixed f32 numbers and
  the blocks 64 consecutive entries of a row. The result is `x · Wᵀ + bias`.

  Two arrangements of that one function are named here. `refAt` contracts all 4096 columns at once, looks the
  code up in the table (a negative index counted from the end, the index then clamped into the table), and takes
  the scale of flat block `(4096·o + i) / 64`. `kernelAt` contracts eight chunks of 512 columns one after the
  other, decodes the index by a four-level selection on its low four bits, and gets the scale of column `i` as the
  row of 64 scales of output row `o` summed against the indicator of `i / 64`.
-/
import Idealize.ShloMosaic.PureOps.Ideal
import Idealize.ShloMosaic.Lib.ValueIdx

noncomputable section

namespace Cert.Spec

open Idealize.ShloMosaic Idealize.ShloMosaic.ValueIdx

/-- The sixteen words of the codebook, in index order. -/
abbrev word : Fin 16 → BitVec 32 := fun
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | _ => 0#32

/-- Codebook entry `n` as an extended real. -/
def code (n : Fin 16) : EReal := Ideal.ofBits .f32 (word n)

/-- The test `w &&& k ≠ 0` as a one-bit word. -/
def bit (w k : BitVec 32) : BitVec 1 := IntOp.cmpi .ne (IntOp.andi w k) 0#32

/-- The four-level selection on bits 0 to 3 of `w`: the entry `8·b₃ + 4·b₂ + 2·b₁ + b₀`. -/
def tree (w : BitVec 32) : EReal :=
  Scalar.select (bit w 8#32)
    (Scalar.select (bit w 4#32)
      (Scalar.select (bit w 2#32) (Scalar.select (bit w 1#32) (code 15) (code 14)) (Scalar.select (bit w 1#32) (code 13) (code 12)))
      (Scalar.select (bit w 2#32) (Scalar.select (bit w 1#32) (code 11) (code 10)) (Scalar.select (bit w 1#32) (code 9) (code 8))))
    (Scalar.select (bit w 4#32)
      (Scalar.select (bit w 2#32) (Scalar.select (bit w 1#32) (code 7) (code 6)) (Scalar.select (bit w 1#32) (code 5) (code 4)))
      (Scalar.select (bit w 2#32) (Scalar.select (bit w 1#32) (code 3) (code 2)) (Scalar.select (bit w 1#32) (code 1) (code 0))))

/-- An index counted from the end when negative: `w + 16` if `w < 0`, else `w`. -/
def norm (w : BitVec 32) : BitVec 32 := Scalar.select (IntOp.cmpi .slt w 0#32) (IntOp.addi w 16#32) w

/-- The table lookup: the normalised index read signed and clamped into `[0, 15]`. -/
def refCode (w : BitVec 32) : EReal := code ⟨min (norm w).toInt.toNat 15, by omega⟩

/-- Column `j` of chunk `k`. -/
def col (k : Fin 8) (j : Fin 512) : Fin 4096 := ⟨512 * k.val + j.val, by omega⟩

/-- Row `s` of batch `p` in the flattened 1024-row activation. -/
def row (p : Fin 2) (s : Fin 512) : Fin 1024 := ⟨512 * p.val + s.val, by omega⟩

/-- Scale `q` of output row `o`, in the flat array of scales. -/
def blk (o : Fin 11008) (q : Fin 64) : Fin 704512 := ⟨64 * o.val + q.val, by omega⟩

/-- The flat block of weight entry `(o, i)`. -/
def blkOf (o : Fin 11008) (i : Fin 4096) : Fin 704512 := ⟨(4096 * o.val + i.val) / 64, by omega⟩

/-- The indicator that column `i` lies in block `q` of its row. -/
def onehot (q : Fin 64) (i : Fin 4096) : EReal := if i.val / 64 = q.val then 1 else 0

abbrev SX : Shape := ⟨3, ![2, 512, 4096]⟩
abbrev SW : Shape := ⟨2, ![11008, 4096]⟩
abbrev SA : Shape := ⟨1, ![704512]⟩
abbrev SB : Shape := ⟨1, ![11008]⟩
abbrev SO : Shape := ⟨3, ![2, 512, 11008]⟩

/-- The chunked arrangement, at output entry `(p, s, o)`. -/
def kernelAt (x : SX.Idx → EReal) (w : SW.Idx → BitVec 32) (a : SA.Idx → EReal) (b : SB.Idx → EReal)
    (p : Fin 2) (s : Fin 512) (o : Fin 11008) : EReal :=
  (∑ k : Fin 8, ∑ j : Fin 512,
      x (ix3 p s (col k j)) * (tree (w (ix2 o (col k j))) * ∑ q : Fin 64, a (ix1 (blk o q)) * onehot q (col k j)))
    + b (ix1 o)

/-- The one-contraction arrangement, at output entry `(p, s, o)`. -/
def refAt (x : SX.Idx → EReal) (w : SW.Idx → BitVec 32) (a : SA.Idx → EReal) (b : SB.Idx → EReal)
    (p : Fin 2) (s : Fin 512) (o : Fin 11008) : EReal :=
  (∑ i : Fin 4096, x (ix3 p s i) * (refCode (w (ix2 o i)) * a (ix1 (blkOf o i)))) + b (ix1 o)

/-- The result array: `refAt` at every entry. -/
def out (x : SX.Idx → EReal) (w : SW.Idx → BitVec 32) (a : SA.Idx → EReal) (b : SB.Idx → EReal) : SO.Idx → EReal :=
  fun y => refAt x w a b (y 0) (y 1) (y 2)

end Cert.Spec

end
-- ==== Proof.Algebra.lean ====
/-
  The two arrangements of the result are one function wherever every index is a codebook index.

  Three facts carry it. A word whose signed value lies in `[0, 16)` is one of the sixteen words `0, …, 15`, and at
  word `n` both the four-level selection and the clamped table lookup give codebook entry `n`. The indicator of
  a column's block picks exactly one of the 64 scales of a row, and that scale is the scale of the flat block, as
  `64·o + i / 64 = (4096·o + i) / 64`. Last, `(k, j) ↦ 512·k + j` is a bijection of `Fin 8 × Fin 512` with
  `Fin 4096`, so eight chunk sums of 512 terms are one sum of 4096 terms.
-/
import proofs.«408952_j9517647528630_3_alg».proof.Proof.Spec
import Mathlib.Tactic.FinCases
import Mathlib.Algebra.BigOperators.Group.Finset.Basic
import Mathlib.Algebra.BigOperators.Fin

noncomputable section

namespace Cert.Spec

open Idealize.ShloMosaic Idealize.ShloMosaic.ValueIdx

/-! ## The selection and the lookup at a codebook index -/

/-- A word whose signed value lies in `[0, 16)` is the word of a number below 16. -/
private theorem eq_ofNat_of_range (w : BitVec 32) (h0 : 0 ≤ w.toInt) (h1 : w.toInt < 16) :
    ∃ n : Fin 16, w = BitVec.ofNat 32 n.val := by
  refine ⟨⟨w.toInt.toNat, by omega⟩, ?_⟩
  apply BitVec.eq_of_toInt_eq
  rw [BitVec.toInt_ofNat']
  have h : ((w.toInt.toNat : Nat) : Int) = w.toInt := Int.toNat_of_nonneg h0
  simp only [h]
  rw [Int.bmod_eq_of_le (by omega) (by omega)]

/-- At the word of `n` the selection on the low four bits reads the binary digits of `n`, and lands on entry `n`. -/
private theorem tree_ofNat (n : Fin 16) : tree (BitVec.ofNat 32 n.val) = code n := by
  fin_cases n <;> simp [tree, bit, IntOp.cmpi, IntOp.andi, Scalar.select]

/-- At the word of `n` the index is not negative, so it is not moved, and `n ≤ 15` is not clamped: the lookup is
    entry `n`. -/
private theorem refCode_ofNat (n : Fin 16) : refCode (BitVec.ofNat 32 n.val) = code n := by
  fin_cases n <;> simp [refCode, norm, IntOp.cmpi, IntOp.addi, Scalar.select]

/-- For an index in `[0, 16)` the selection on its low four bits and the clamped table lookup agree. -/
theorem tree_eq_refCode (w : BitVec 32) (h0 : 0 ≤ w.toInt) (h1 : w.toInt < 16) : tree w = refCode w := by
  obtain ⟨n, rfl⟩ := eq_ofNat_of_range w h0 h1
  rw [tree_ofNat, refCode_ofNat]

/-! ## The scale of a column -/

/-- The row of 64 scales of output row `o` summed against the indicator of column `i`'s block is the scale of
    the flat block of entry `(o, i)`. -/
theorem scale_sum (a : SA.Idx → EReal) (o : Fin 11008) (i : Fin 4096) :
    ∑ q : Fin 64, a (ix1 (blk o q)) * onehot q i = a (ix1 (blkOf o i)) := by
  have hi : i.val / 64 < 64 := by omega
  -- only the term of block `i / 64` is not a product with zero
  rw [Finset.sum_eq_single (⟨i.val / 64, hi⟩ : Fin 64)]
  · -- that term is the scale times one, and `64·o + i / 64 = (4096·o + i) / 64`
    have hb : blk o ⟨i.val / 64, hi⟩ = blkOf o i := by
      apply Fin.ext
      simp only [blk, blkOf]
      omega
    simp [onehot, hb]
  · intro q _ hq
    have hne : ¬ i.val / 64 = q.val := fun h => hq (Fin.ext h.symm)
    simp [onehot, hne]
  · intro h
    exact absurd (Finset.mem_univ _) h

/-! ## Eight chunks of 512 columns are the 4096 columns -/

/-- `(k, j) ↦ 512·k + j`, with inverse `i ↦ (i / 512, i % 512)`. -/
private def colEquiv : Fin 8 × Fin 512 ≃ Fin 4096 where
  toFun kj := col kj.1 kj.2
  invFun i := (⟨i.val / 512, by omega⟩, ⟨i.val % 512, Nat.mod_lt _ (by omega)⟩)
  left_inv kj := by
    obtain ⟨k, j⟩ := kj
    apply Prod.ext <;> apply Fin.ext <;> simp only [col] <;> omega
  right_inv i := by
    apply Fin.ext
    simp only [col]
    omega

/-- A sum over the chunks of the sums over their columns is the sum over all columns. -/
private theorem sum_chunks {M : Type*} [AddCommMonoid M] (f : Fin 4096 → M) :
    ∑ k : Fin 8, ∑ j : Fin 512, f (col k j) = ∑ i : Fin 4096, f i := by
  rw [← Fintype.sum_prod_type' (fun k j => f (col k j))]
  exact Fintype.sum_equiv colEquiv _ _ (fun _ => rfl)

/-- The chunked arrangement is the one-contraction arrangement, at every entry. -/
theorem kernelAt_eq_refAt (x : SX.Idx → EReal) (w : SW.Idx → BitVec 32) (a : SA.Idx → EReal) (b : SB.Idx → EReal)
    (hw : ∀ i, 0 ≤ (w i).toInt ∧ (w i).toInt < 16) (p : Fin 2) (s : Fin 512) (o : Fin 11008) :
    kernelAt x w a b p s o = refAt x w a b p s o := by
  -- term by term: the selection is the lookup, and the summed row of scales is the scale of the flat block
  have term : ∀ i : Fin 4096,
      x (ix3 p s i) * (tree (w (ix2 o i)) * ∑ q : Fin 64, a (ix1 (blk o q)) * onehot q i)
        = x (ix3 p s i) * (refCode (w (ix2 o i)) * a (ix1 (blkOf o i))) := by
    intro i
    rw [tree_eq_refCode _ (hw _).1 (hw _).2, scale_sum]
  unfold kernelAt refAt
  simp only [term]
  -- and the eight chunk sums are the one sum
  rw [sum_chunks (fun i => x (ix3 p s i) * (refCode (w (ix2 o i)) * a (ix1 (blkOf o i))))]

end Cert.Spec

end
-- ==== Proof.PreDecode.lean ====
/-
  What the precondition says of the index array: every entry is a codebook index.
-/
import proofs.«408952_j9517647528630_3_alg».proof.Pre_finite_inputs
import proofs.«408952_j9517647528630_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- If the precondition's function is all ones, every index lies in `[0, 16)` read signed. -/
theorem idx_range {F : FTy → Type} [FloatOps F] (x : FVec F S2x512x4096 .f32) (w : IVec S11008x4096 32)
    (a : FVec F S704512 .f32) (b : FVec F S11008 .f32)
    (h : Cert.Pre_finite_inputs.fn (F := F) x w a b = fun _ => 1#1) :
    ∀ i, 0 ≤ (w i).toInt ∧ (w i).toInt < 16 := by
  intro i
  -- The precondition is a scalar; read it at its one index.
  have h0 := congrFun h ix0
  dsimp only [fn, fn_part1] at h0
  -- It is a conjunction whose last conjunct is the `and` over all entries of the two range tests.
  have hall := (IntOp.andi_eq_one.1 h0).2
  -- A scalar's shape has exactly one index, so every entry reduces into that one result:
  -- an `and` over all entries that is one had a one at every entry.
  haveI : Subsingleton S_.Idx := ⟨fun p q => funext fun d => d.elim0⟩
  have hi := Host.reduce_andi_all _ _ _ _ ix0 hall i
  -- At entry `i` the two tests are `0 ≤ w i` and `w i < 16`, both read signed.
  obtain ⟨hge, hlt⟩ := IntOp.andi_eq_one.1 hi
  have hge' : (0#32 : BitVec 32).toInt ≤ (w i).toInt := IntOp.cmpi_sge.1 hge
  have hlt' : (w i).toInt < (16#32 : BitVec 32).toInt := IntOp.cmpi_slt.1 hlt
  have e0 : (0#32 : BitVec 32).toInt = 0 := by decide
  have e16 : (16#32 : BitVec 32).toInt = 16 := by decide
  rw [e0] at hge'
  rw [e16] at hlt'
  exact ⟨hge', hlt'⟩

end Cert.PreDecode

end
-- ==== Proof.KDefs.lean ====
/-
  The kernel body's value as one pure function of the five input blocks.

  One grid point holds an output tile of 256 weight rows. The scales of the tile, expanded to one per column, are
  `k0_pay1` of the tile's 256 × 64 scales and the 64 × 4096 indicator matrix. Trip `k` of the loop reads columns
  `512·k … 512·k + 511` of the indices, of the expanded scales and of the activations, and adds that chunk's
  contraction to the carried 1024 × 256 accumulator (`k0_pay3`). After the eight trips the bias row is added
  (`k0_pay4`).
-/
import proofs.«408952_j9517647528630_3_alg».proof.Proof.Gen.KernelIdeal.Skeleton
import Idealize.ShloMosaic.Lib.Pipeline.FrameBody

noncomputable section

namespace Cert.KernelIdeal.Val

open Idealize.ShloMosaic Idealize.SL.Sem
open Cert.KernelIdeal Cert.KernelIdeal.Gen

variable {F : FTy → Type} [FloatOps F]

/-- Columns `512·k … 512·k + 511` of a 256-row array: what trip `k` reads of the indices and of the scales. -/
abbrev chunkW {e : EltTy} (X : Vec F S256x4096 e) (k : Fin k0_t1_loop.trips) : Vec F S256x512 e :=
  View.ld X (Rect.unit (s := S256x4096) (k0_off1 k) S256x512.size (k0_off1_inb k))

/-- The same columns of the 1024-row activations. -/
abbrev chunkX (X : Vec F S1024x4096 .bf16) (k : Fin k0_t1_loop.trips) : Vec F S1024x512 .bf16 :=
  View.ld X (Rect.unit (s := S1024x4096) (k0_off2 k) S1024x512.size (k0_off2_inb k))

/-- One trip: the accumulator plus chunk `k`'s contraction of the activations with the decoded, scaled weights. -/
def tripVal (x0 : Vec F S1024x4096 .bf16) (x1 : Vec F S256x4096 .i32) (sc : Vec F S256x4096 .f32)
    (k : Fin k0_t1_loop.trips) (acc : FVec F S1024x256 .f32) : FVec F S1024x256 .f32 :=
  k0_pay3 acc (k0_pay5 (chunkW x1 k)) (k0_pay6 (chunkW x1 k)) (k0_pay7 (chunkW x1 k)) (k0_pay8 (chunkW x1 k))
    (k0_pay9 (chunkW x1 k)) (k0_pay10 (chunkW x1 k)) (k0_pay11 (chunkW x1 k)) (k0_pay12 (chunkW x1 k))
    (k0_pay13 (chunkW x1 k)) (k0_pay14 (F := F)) (k0_pay15 (F := F)) (chunkW sc k) (chunkX x0 k)

/-- The accumulator before trip `n`: zero, then one `tripVal` per trip. -/
def loopVal (x0 : Vec F S1024x4096 .bf16) (x1 : Vec F S256x4096 .i32) (sc : Vec F S256x4096 .f32) :
    ℕ → FVec F S1024x256 .f32
  | 0 => k0_pay2 (F := F)
  | n + 1 => if h : n < k0_t1_loop.trips then tripVal x0 x1 sc ⟨n, h⟩ (loopVal x0 x1 sc n) else loopVal x0 x1 sc n

/-- The output tile: the accumulator after all trips, over the scales expanded by `k0_pay1`, plus the bias row. -/
def bodyVal (x0 : Vec F S1024x4096 .bf16) (x1 : Vec F S256x4096 .i32) (x2 : Vec F S256x64 .f32)
    (x3 : Vec F S1x256 .f32) (x4 : Vec F S64x4096 .f32) : FVec F S1024x256 .f32 :=
  k0_pay4 (loopVal x0 x1 (k0_pay1 x2 x4) k0_t1_loop.trips) x3

end Cert.KernelIdeal.Val

end
-- ==== Proof.KBody.lean ====
/-
  What the body leaves in the output tile is `bodyVal` of the point's five input blocks.

  The run of the body found one covering store into the output tile, whose value is the bias step applied to
  the loop's carried value after its last trip; the loop started from the zero accumulator, with the scratch
  holding the one store of the expanded scales. A trip's found result is `tripVal`; so the carried value before
  trip `n` is `loopVal … n`, by induction on `n`.
-/
import proofs.«408952_j9517647528630_3_alg».proof.Proof.Gen.KernelIdeal.Frame
import proofs.«408952_j9517647528630_3_alg».proof.Proof.KDefs
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Val

variable {F : FTy → Type} [FloatOps F]

/-- One trip's found result, over the contents the three buffers it reads are read at. -/
theorem tripR_eq (c : Dev nD) (i : grid0.Coords) (arg1 : Memref sig .tc .vmem S1024x4096 .bf16) (harg1 : arg1.IsWhole) (arg2 : Memref sig .tc .vmem S256x4096 .i32) (harg2 : arg2.IsWhole) (arg3 : Memref sig .tc .vmem S256x64 .f32) (harg3 : arg3.IsWhole) (arg4 : Memref sig .tc .vmem S1x256 .f32) (harg4 : arg4.IsWhole) (arg5 : Memref sig .tc .vmem S64x4096 .f32) (harg5 : arg5.IsWhole) (arg6 : Memref sig .tc .vmem S1024x256 .f32) (harg6 : arg6.IsWhole) (arg7 : Memref sig .tc .vmem S256x4096 .f32) (harg7 : arg7.IsWhole)
    (X_arg1 : BufTy.Contents (Elt F) arg1.view.ty) (X_arg2 : BufTy.Contents (Elt F) arg2.view.ty) (X_arg7 : BufTy.Contents (Elt F) arg7.view.ty)
    (k : Fin k0_t1_loop.trips) (acc : FVec F S1024x256 .f32) :
    tripR_k0_t1 (F := F) Variants.none c none i arg1 harg1 arg2 harg2 arg3 harg3 arg4 harg4 arg5 harg5 arg6 harg6 arg7 harg7 X_arg1 X_arg2 X_arg7 k acc
      = tripVal (arg1.view.read (Elt F) X_arg1) (arg2.view.read (Elt F) X_arg2) (arg7.view.read (Elt F) X_arg7) k acc := by
  unfold tripR_k0_t1 trip_k0_t1
  dsimp only
  rfl

/-- The carried value before trip `n`, from the zero accumulator, is `loopVal` at `n`. -/
theorem st_eq (c : Dev nD) (i : grid0.Coords) (arg1 : Memref sig .tc .vmem S1024x4096 .bf16) (harg1 : arg1.IsWhole) (arg2 : Memref sig .tc .vmem S256x4096 .i32) (harg2 : arg2.IsWhole) (arg3 : Memref sig .tc .vmem S256x64 .f32) (harg3 : arg3.IsWhole) (arg4 : Memref sig .tc .vmem S1x256 .f32) (harg4 : arg4.IsWhole) (arg5 : Memref sig .tc .vmem S64x4096 .f32) (harg5 : arg5.IsWhole) (arg6 : Memref sig .tc .vmem S1024x256 .f32) (harg6 : arg6.IsWhole) (arg7 : Memref sig .tc .vmem S256x4096 .f32) (harg7 : arg7.IsWhole)
    (X_arg1 : BufTy.Contents (Elt F) arg1.view.ty) (X_arg2 : BufTy.Contents (Elt F) arg2.view.ty) (X_arg7 : BufTy.Contents (Elt F) arg7.view.ty) (n : ℕ) :
    st_k0_t1 (F := F) Variants.none c none i arg1 harg1 arg2 harg2 arg3 harg3 arg4 harg4 arg5 harg5 arg6 harg6 arg7 harg7 X_arg1 X_arg2 X_arg7 (k0_pay2 (F := F)) n
      = loopVal (arg1.view.read (Elt F) X_arg1) (arg2.view.read (Elt F) X_arg2) (arg7.view.read (Elt F) X_arg7) n := by
  induction n with
  | zero => rfl
  | succ n ih =>
    rw [st_k0_t1.eq_2, loopVal]
    unfold st_k0_t1Step
    by_cases h : n < k0_t1_loop.trips
    · rw [dif_pos h, dif_pos h, tripR_eq, ih]
    · rw [dif_neg h, dif_neg h, ih]

/-- The two-axis zero offset, however it is spelt. -/
theorem zero_off2 : (![0, 0] : Fin 2 → Nat) = fun _ => 0 := by
  funext a; match a with | ⟨0, _⟩ => rfl | ⟨1, _⟩ => rfl

/-- THE OUTPUT TILE: what the body leaves in the output's staging buffer is `bodyVal` of the five input blocks. -/
theorem out_eq (c : Dev nD) (i : grid0.Coords) (arg1 : Memref sig .tc .vmem S1024x4096 .bf16) (harg1 : arg1.IsWhole) (arg2 : Memref sig .tc .vmem S256x4096 .i32) (harg2 : arg2.IsWhole) (arg3 : Memref sig .tc .vmem S256x64 .f32) (harg3 : arg3.IsWhole) (arg4 : Memref sig .tc .vmem S1x256 .f32) (harg4 : arg4.IsWhole) (arg5 : Memref sig .tc .vmem S64x4096 .f32) (harg5 : arg5.IsWhole) (arg6 : Memref sig .tc .vmem S1024x256 .f32) (harg6 : arg6.IsWhole) (arg7 : Memref sig .tc .vmem S256x4096 .f32) (harg7 : arg7.IsWhole)
    (x0 : Vec F S1024x4096 .bf16) (x1 : Vec F S256x4096 .i32) (x2 : Vec F S256x64 .f32) (x3 : Vec F S1x256 .f32) (x4 : Vec F S64x4096 .f32) :
    out0_A_5 c i arg1 harg1 arg2 harg2 arg3 harg3 arg4 harg4 arg5 harg5 arg6 harg6 arg7 harg7 x0 x1 x2 x3 x4
      = bodyVal x0 x1 x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  rw [View.canon_unit_zero zero_off2, st_eq, harg1.read_unread, harg2.read_unread]
  have hsc : arg7.view.read (Elt F) (arg7.view.writes (Elt F) arg7.view.junk (kernelRun0_A.sl.HS0_1 c arg3 harg3 arg5 harg5 x2 x4))
      = k0_pay1 x2 x4 := by
    unfold kernelRun0_A.sl.HS0_1
    rw [View.read_writes_eq_canon _ _ _ (fun y => ⟨_, List.mem_singleton_self _, View.mem_set_unit_zero zero_off2 inb_S256x4096_S256x4096_0_0 y⟩),
      View.canon_unit_zero zero_off2]
    simp only [View.readAt_eq_ld, harg3.read_unread, harg5.read_unread, View.ld_unit_zero (S := S256x64) zero_off2,
      View.ld_unit_zero (S := S64x4096) zero_off2]
  rw [hsc]
  simp only [View.readAt_eq_ld, harg4.read_unread, View.ld_unit_zero (S := S1x256) zero_off2]
  rfl

end Cert.KernelIdeal.Gen

end
-- ==== Proof.KPay.lean ====
/-
  The output tile at an entry, over the extended reals: eight chunk contractions of the activations with the
  decoded weights times their expanded scales, plus the bias.
-/
import proofs.«408952_j9517647528630_3_alg».proof.Proof.KDefs
import proofs.«408952_j9517647528630_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx Idealize.SL.Sem
open Cert.KernelIdeal Cert.KernelIdeal.Gen

/-- The bias row added to every row of the accumulator. -/
theorem pay4_apply (acc : FVec Ideal S1024x256 .f32) (x3 : Vec Ideal S1x256 .f32) (r : Fin 1024) (n : Fin 256) :
    k0_pay4 (F := Ideal) acc x3 (ix2 r n) = acc (ix2 r n) + (x3 (ix2 (0 : Fin 1) n) : EReal) := by
  unfold k0_pay4
  rw [addf_apply, shapeCast_self, broadcastTo_1b_ab_apply]

/-! ## The scales expanded to one per column

The product of the tile's 256 × 64 scales with the 64 × 4096 indicator matrix: the left operand's axis 1 against the
right operand's axis 0. The operand indices at result index `i` and contraction position `q`, one axis at a time. -/

theorem lhs_scale_0 (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide),
    dif_pos (show (0 : Fin S256x64.rank) ∈ dot_S256x64_S64x4096_S256x4096_1_0_0_1_n_n.lhsNonContracting by decide)]
  rfl

theorem lhs_scale_1 (i : S256x4096.Idx) (q : dot_S256x64_S64x4096_S256x4096_1_0_0_1_n_n.contr.Idx) :
    (dot_S256x64_S64x4096_S256x4096_1_0_0_1_n_n.lhsIdx i q 1).val = (q ⟨0, by decide⟩).val :=
  dot_S256x64_S64x4096_S256x4096_1_0_0_1_n_n.lhsIdx_val_of_single rfl i q

theorem rhs_scale_0 (i : S256x4096.Idx) (q : dot_S256x64_S64x4096_S256x4096_1_0_0_1_n_n.contr.Idx) :
    (dot_S256x64_S64x4096_S256x4096_1_0_0_1_n_n.rhsIdx i q 0).val = (q ⟨0, by decide⟩).val :=
  dot_S256x64_S64x4096_S256x4096_1_0_0_1_n_n.rhsIdx_val_of_single rfl i q

theorem rhs_scale_1 (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide),
    dif_pos (show (1 : Fin S64x4096.rank) ∈ dot_S256x64_S64x4096_S256x4096_1_0_0_1_n_n.rhsNonContracting by decide)]
  rfl

/-- The expanded scale of row `n` at column `c`: the row's 64 scales against column `c` of the indicator matrix. -/
theorem pay1_apply (x2 : Vec Ideal S256x64 .f32) (x4 : Vec Ideal S64x4096 .f32) (n : Fin 256) (c : Fin 4096) :
    k0_pay1 (F := Ideal) x2 x4 (ix2 n c) = ∑ q : Fin 64, (x2 (ix2 n q) : EReal) * (x4 (ix2 q c) : EReal) := by
  unfold k0_pay1
  rw [shapeCast_self, shapeCast_self, shapeCast_self]
  show FloatOps.matmul dot_S256x64_S64x4096_S256x4096_1_0_0_1_n_n none x2 x4 (constant (F := Ideal) S256x4096 .f32 0x00000000#32) (ix2 n c) = _
  rw [Ideal.matmul_constant_zero_apply,
    ← Equiv.sum_comp (contrEquiv1 dot_S256x64_S64x4096_S256x4096_1_0_0_1_n_n 64 rfl rfl).symm]
  refine Finset.sum_congr rfl fun q _ => ?_
  have hq := contrEquiv1_symm_val dot_S256x64_S64x4096_S256x4096_1_0_0_1_n_n 64 rfl rfl q
  have el : dot_S256x64_S64x4096_S256x4096_1_0_0_1_n_n.lhsIdx (ix2 n c)
      ((contrEquiv1 dot_S256x64_S64x4096_S256x4096_1_0_0_1_n_n 64 rfl rfl).symm q) = ix2 n q :=
    funext fun a => Fin.ext (by
      match a with
      | ⟨0, _⟩ => exact lhs_scale_0 _ _
      | ⟨1, _⟩ => exact (lhs_scale_1 _ _).trans hq)
  have er : dot_S256x64_S64x4096_S256x4096_1_0_0_1_n_n.rhsIdx (ix2 n c)
      ((contrEquiv1 dot_S256x64_S64x4096_S256x4096_1_0_0_1_n_n 64 rfl rfl).symm q) = ix2 q c :=
    funext fun a => Fin.ext (by
      match a with
      | ⟨0, _⟩ => exact (rhs_scale_0 _ _).trans hq
      | ⟨1, _⟩ => exact rhs_scale_1 _ _)
  rw [el, er]

/-! ## The chunk reads

Trip `k` reads the 512 columns from `512·k` on: local column `j` is column `512·k + j` of the array. -/

/-- The loop makes eight trips. -/
theorem trips_eq : k0_t1_loop.trips = 8 := by decide

/-- Column `j` of trip `k`'s chunk, as a column of the whole array. -/
def gcol (k : Fin k0_t1_loop.trips) (j : Fin 512) : Fin 4096 := Cert.Spec.col (k.cast trips_eq) j

theorem gcol_val (k : Fin k0_t1_loop.trips) (j : Fin 512) : (gcol k j).val = 512 * k.val + j.val := rfl

/-- A chunk of a 256-row array read at `(n, j)`. -/
theorem chunkW_apply {e : EltTy} (X : Vec Ideal S256x4096 e) (k : Fin k0_t1_loop.trips) (n : Fin 256) (j : Fin 512) :
    chunkW X k (ix2 n j) = X (ix2 n (gcol k j)) := by
  show X _ = X _
  refine congrArg X (funext fun a => Fin.ext ?_)
  match a with
  | ⟨0, _⟩ =>
    show k0_off1 k 0 + 1 * n.val = n.val
    rw [k0_off1_eq]; simp
  | ⟨1, _⟩ =>
    show k0_off1 k 1 + 1 * j.val = 512 * k.val + j.val
    rw [k0_off1_eq]; simp

/-- A chunk of the activations read at `(r, j)`. -/
theorem chunkX_apply (X : Vec Ideal S1024x4096 .bf16) (k : Fin k0_t1_loop.trips) (r : Fin 1024) (j : Fin 512) :
    chunkX X k (ix2 r j) = X (ix2 r (gcol k j)) := by
  show X _ = X _
  refine congrArg X (funext fun a => Fin.ext ?_)
  match a with
  | ⟨0, _⟩ =>
    show k0_off2 k 0 + 1 * r.val = r.val
    rw [k0_off2_eq]; simp
  | ⟨1, _⟩ =>
    show k0_off2 k 1 + 1 * j.val = 512 * k.val + j.val
    rw [k0_off2_eq]; simp

/-! ## One trip

The product of the 1024 × 512 activation chunk with the 256 × 512 decoded, scaled weight chunk: axis 1 of each operand
is contracted. The operand indices at result index `i` and contraction position `q`, one axis at a time. -/

theorem lhs_trip_0 (i : S1024x256.Idx) (q : dot_S1024x512_S256x512_S1024x256_1_1_0_0_n_n.contr.Idx) :
    (dot_S1024x512_S256x512_S1024x256_1_1_0_0_n_n.lhsIdx i q 0).val = (i 0).val := by
  unfold DotDims.lhsIdx
  rw [dif_neg (show ¬(0 : Fin S1024x512.rank) ∈ dot_S1024x512_S256x512_S1024x256_1_1_0_0_n_n.lhsBatch by decide),
    dif_pos (show (0 : Fin S1024x512.rank) ∈ dot_S1024x512_S256x512_S1024x256_1_1_0_0_n_n.lhsNonContracting by decide)]
  rfl

theorem lhs_trip_1 (i : S1024x256.Idx) (q : dot_S1024x512_S256x512_S1024x256_1_1_0_0_n_n.contr.Idx) :
    (dot_S1024x512_S256x512_S1024x256_1_1_0_0_n_n.lhsIdx i q 1).val = (q ⟨0, by decide⟩).val :=
  dot_S1024x512_S256x512_S1024x256_1_1_0_0_n_n.lhsIdx_val_of_single rfl i q

theorem rhs_trip_0 (i : S1024x256.Idx) (q : dot_S1024x512_S256x512_S1024x256_1_1_0_0_n_n.contr.Idx) :
    (dot_S1024x512_S256x512_S1024x256_1_1_0_0_n_n.rhsIdx i q 0).val = (i 1).val := by
  unfold DotDims.rhsIdx
  rw [dif_neg (show ¬(0 : Fin S256x512.rank) ∈ dot_S1024x512_S256x512_S1024x256_1_1_0_0_n_n.rhsBatch by decide),
    dif_pos (show (0 : Fin S256x512.rank) ∈ dot_S1024x512_S256x512_S1024x256_1_1_0_0_n_n.rhsNonContracting by decide)]
  rfl

theorem rhs_trip_1 (i : S1024x256.Idx) (q : dot_S1024x512_S256x512_S1024x256_1_1_0_0_n_n.contr.Idx) :
    (dot_S1024x512_S256x512_S1024x256_1_1_0_0_n_n.rhsIdx i q 1).val = (q ⟨0, by decide⟩).val :=
  dot_S1024x512_S256x512_S1024x256_1_1_0_0_n_n.rhsIdx_val_of_single rfl i q

/-- The chunk product at `(r, n)`: the sum over the chunk's 512 columns of activation times weight. -/
theorem trip_matmul_apply (xs : FVec Ideal S1024x512 .bf16) (ws : FVec Ideal S256x512 .bf16) (r : Fin 1024) (n : Fin 256) :
    FloatOps.matmul dot_S1024x512_S256x512_S1024x256_1_1_0_0_n_n none xs ws (constant (F := Ideal) S1024x256 .f32 0x00000000#32) (ix2 r n)
      = ∑ j : Fin 512, (xs (ix2 r j) : EReal) * (ws (ix2 n j) : EReal) := by
  rw [Ideal.matmul_constant_zero_apply,
    ← Equiv.sum_comp (contrEquiv1 dot_S1024x512_S256x512_S1024x256_1_1_0_0_n_n 512 rfl rfl).symm]
  refine Finset.sum_congr rfl fun j _ => ?_
  have hj := contrEquiv1_symm_val dot_S1024x512_S256x512_S1024x256_1_1_0_0_n_n 512 rfl rfl j
  have el : dot_S1024x512_S256x512_S1024x256_1_1_0_0_n_n.lhsIdx (ix2 r n)
      ((contrEquiv1 dot_S1024x512_S256x512_S1024x256_1_1_0_0_n_n 512 rfl rfl).symm j) = ix2 r j :=
    funext fun a => Fin.ext (by
      match a with
      | ⟨0, _⟩ => exact lhs_trip_0 _ _
      | ⟨1, _⟩ => exact (lhs_trip_1 _ _).trans hj)
  have er : dot_S1024x512_S256x512_S1024x256_1_1_0_0_n_n.rhsIdx (ix2 r n)
      ((contrEquiv1 dot_S1024x512_S256x512_S1024x256_1_1_0_0_n_n 512 rfl rfl).symm j) = ix2 n j :=
    funext fun a => Fin.ext (by
      match a with
      | ⟨0, _⟩ => exact rhs_trip_0 _ _
      | ⟨1, _⟩ => exact (rhs_trip_1 _ _).trans hj)
  rw [el, er]

/-- One trip's payload at `(r, n)`, over any index chunk `w`, scale chunk `sc` and activation chunk `xs`: the
    four bit tests and the fifteen selections are the selection tree on the index, the rounding to bf16 is exact. -/
theorem pay3_apply (acc : FVec Ideal S1024x256 .f32) (w : Vec Ideal S256x512 .i32) (sc : Vec Ideal S256x512 .f32)
    (xs : Vec Ideal S1024x512 .bf16) (r : Fin 1024) (n : Fin 256) :
    k0_pay3 (F := Ideal) acc (k0_pay5 w) (k0_pay6 w) (k0_pay7 w) (k0_pay8 w) (k0_pay9 w) (k0_pay10 w) (k0_pay11 w)
        (k0_pay12 w) (k0_pay13 w) (k0_pay14 (F := Ideal)) (k0_pay15 (F := Ideal)) sc xs (ix2 r n)
      = acc (ix2 r n)
        + ∑ j : Fin 512, (xs (ix2 r j) : EReal) * (Cert.Spec.tree (w (ix2 n j)) * (sc (ix2 n j) : EReal)) := by
  unfold k0_pay3
  rw [addf_apply, shapeCast_self]
  refine congrArg (acc (ix2 r n) + ·) ?_
  refine (trip_matmul_apply _ _ r n).trans (Finset.sum_congr rfl fun j _ => ?_)
  rw [truncf_apply, mulf_apply]
  rfl

/-! ## The loop and the tile -/

/-- Chunk `k`'s contraction at `(r, n)`, as a function of a natural `k` (zero past the last trip). -/
def chunkSum (x0 : Vec Ideal S1024x4096 .bf16) (x1 : Vec Ideal S256x4096 .i32) (sc : Vec Ideal S256x4096 .f32)
    (r : Fin 1024) (n : Fin 256) (k : ℕ) : EReal :=
  if h : k < k0_t1_loop.trips then
    ∑ j : Fin 512, (x0 (ix2 r (gcol ⟨k, h⟩ j)) : EReal)
      * (Cert.Spec.tree (x1 (ix2 n (gcol ⟨k, h⟩ j))) * (sc (ix2 n (gcol ⟨k, h⟩ j)) : EReal))
  else 0

/-- One trip adds its chunk's contraction to the accumulator. -/
theorem tripVal_apply (x0 : Vec Ideal S1024x4096 .bf16) (x1 : Vec Ideal S256x4096 .i32) (sc : Vec Ideal S256x4096 .f32)
    (k : Fin k0_t1_loop.trips) (acc : FVec Ideal S1024x256 .f32) (r : Fin 1024) (n : Fin 256) :
    tripVal (F := Ideal) x0 x1 sc k acc (ix2 r n) = acc (ix2 r n) + chunkSum x0 x1 sc r n k.val := by
  unfold tripVal chunkSum
  rw [pay3_apply, dif_pos k.isLt]
  refine congrArg (acc (ix2 r n) + ·) (Finset.sum_congr rfl fun j _ => ?_)
  rw [chunkX_apply, chunkW_apply, chunkW_apply]

/-- The accumulator before trip `m` is the sum of the chunks before `m`. -/
theorem loopVal_apply (x0 : Vec Ideal S1024x4096 .bf16) (x1 : Vec Ideal S256x4096 .i32) (sc : Vec Ideal S256x4096 .f32)
    (r : Fin 1024) (n : Fin 256) (m : ℕ) :
    loopVal (F := Ideal) x0 x1 sc m (ix2 r n) = ∑ k ∈ Finset.range m, chunkSum x0 x1 sc r n k := by
  induction m with
  | zero =>
    rw [Finset.range_zero, Finset.sum_empty]
    show Ideal.ofBits .f32 0x00000000#32 = 0
    exact Ideal.ofBits_zero_f32
  | succ m ih =>
    rw [Finset.sum_range_succ, ← ih]
    show (if h : m < k0_t1_loop.trips then tripVal x0 x1 sc ⟨m, h⟩ (loopVal x0 x1 sc m) else loopVal x0 x1 sc m) (ix2 r n) = _
    by_cases h : m < k0_t1_loop.trips
    · rw [dif_pos h, tripVal_apply]
    · rw [dif_neg h]
      unfold chunkSum
      rw [dif_neg h, add_zero]

/-- Entry `(r, n)` of the tile. -/
theorem bodyVal_apply (x0 : Vec Ideal S1024x4096 .bf16) (x1 : Vec Ideal S256x4096 .i32) (x2 : Vec Ideal S256x64 .f32)
    (x3 : Vec Ideal S1x256 .f32) (x4 : Vec Ideal S64x4096 .f32) (r : Fin 1024) (n : Fin 256) :
    bodyVal (F := Ideal) x0 x1 x2 x3 x4 (ix2 r n)
      = (∑ k : Fin 8, ∑ j : Fin 512,
          (x0 (ix2 r (Cert.Spec.col k j)) : EReal)
            * (Cert.Spec.tree (x1 (ix2 n (Cert.Spec.col k j)))
                * ∑ q : Fin 64, (x2 (ix2 n q) : EReal) * (x4 (ix2 q (Cert.Spec.col k j)) : EReal)))
        + (x3 (ix2 (0 : Fin 1) n) : EReal) := by
  unfold bodyVal
  rw [pay4_apply, loopVal_apply, trips_eq, Finset.sum_range]
  refine congrArg (· + (x3 (ix2 (0 : Fin 1) n) : EReal)) (Finset.sum_congr rfl fun k _ => ?_)
  unfold chunkSum
  rw [dif_pos (lt_of_lt_of_eq k.isLt trips_eq.symm)]
  refine Finset.sum_congr rfl fun j _ => ?_
  rw [pay1_apply]
  rfl

end Cert.KernelIdeal.Val

end
-- ==== Proof.KBlocks.lean ====
/-
  From tiles to the result array, and through the final reshape.

  Grid point `t` holds columns `256·t … 256·t + 255` of the 1024 × 11008 result: it reads all of the flattened
  activations and of the indicator matrix, rows `256·t …` of the indices and of the 64-per-row scales, and columns
  `256·t …` of the bias row. What it writes back is its tile of ONE function `GArr` of the arrays the region finds;
  the 43 tiles cover the array, so the array ends holding `GArr`. The host then reshapes it to 2 × 512 × 11008.
-/
import proofs.«408952_j9517647528630_3_alg».proof.Proof.KBody
import proofs.«408952_j9517647528630_3_alg».proof.Proof.KPay
import proofs.«408952_j9517647528630_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Val

variable (m : (ℓ : Loc nD τ sig) → Buf (Elt Ideal) ℓ) (ρ : Dev nD → PrngReg)

/-- The five arrays the region reads, as it finds them, at their literal types. -/
abbrev arrX (c : Dev nD) : S1024x4096.Idx → EReal := V m c main_v1
abbrev arrW (c : Dev nD) : S11008x4096.Idx → BitVec 32 := V m c main_arg1
abbrev arrA (c : Dev nD) : S11008x64.Idx → EReal := V m c main_v2
abbrev arrB (c : Dev nD) : S1x11008.Idx → EReal := V m c main_v3
abbrev arrR (c : Dev nD) : S64x4096.Idx → EReal := V m c main_v12

/-- Entry `(r, o)` of the result array, over the arrays the region finds. -/
def GAt (c : Dev nD) (r : Fin 1024) (o : Fin 11008) : EReal :=
  (∑ k : Fin 8, ∑ j : Fin 512,
      arrX m c (ix2 r (Cert.Spec.col k j))
        * (Cert.Spec.tree (arrW m c (ix2 o (Cert.Spec.col k j)))
            * ∑ q : Fin 64, arrA m c (ix2 o q) * arrR m c (ix2 q (Cert.Spec.col k j))))
    + arrB m c (ix2 (0 : Fin 1) o)

/-- The result array. -/
def GArr (c : Dev nD) : S1024x11008.Idx → EReal := fun y => GAt m c (y 0) (y 1)

/-- The grid has 43 points. -/
theorem N43 : cfg0.N = 43 := N_0

/-- Column `n` of tile `t`. -/
def tile (t : Fin cfg0.N) (n : Fin 256) : Fin 11008 := ⟨256 * t.val + n.val, by
  have h1 : t.val < cfg0.N := t.isLt
  have h2 : cfg0.N = 43 := N43
  omega⟩

/-- The printed index maps over the grid: the two whole windows stay at block (0, 0); the index, scale, bias
    and output windows move with the point along their tiled axis. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The point's five input blocks at their literal types. -/
abbrev blkX (c : Dev nD) (t : Fin cfg0.N) : Vec Ideal S1024x4096 .bf16 := iblk m c 0 t
abbrev blkW (c : Dev nD) (t : Fin cfg0.N) : Vec Ideal S256x4096 .i32 := iblk m c 1 t
abbrev blkA (c : Dev nD) (t : Fin cfg0.N) : Vec Ideal S256x64 .f32 := iblk m c 2 t
abbrev blkB (c : Dev nD) (t : Fin cfg0.N) : Vec Ideal S1x256 .f32 := iblk m c 3 t
abbrev blkR (c : Dev nD) (t : Fin cfg0.N) : Vec Ideal S64x4096 .f32 := iblk m c 4 t

theorem blkX_apply (c : Dev nD) (t : Fin cfg0.N) (r : Fin 1024) (i : Fin 4096) :
    blkX m c t (ix2 r i) = arrX m c (ix2 r i) := by
  obtain ⟨e0, e1, -⟩ := idx_facts t
  show V m c main_v1 (((cfg0.win 0).blk t).view.emb (ix2 r i)) = V m c main_v1 (ix2 r i)
  refine congrArg _ (funext fun a => Fin.ext ?_)
  match a with
  | ⟨0, _⟩ => show win0_0.index t (0 : Fin 2) * 1024 + 1 * r.val = r.val; omega
  | ⟨1, _⟩ => show win0_0.index t (1 : Fin 2) * 4096 + 1 * i.val = i.val; omega

theorem blkW_apply (c : Dev nD) (t : Fin cfg0.N) (n : Fin 256) (i : Fin 4096) :
    blkW m c t (ix2 n i) = arrW m c (ix2 (tile t n) i) := by
  obtain ⟨-, -, e0, e1, -⟩ := idx_facts t
  show V m c main_arg1 (((cfg0.win 1).blk t).view.emb (ix2 n i)) = V m c main_arg1 (ix2 (tile t n) i)
  refine congrArg _ (funext fun a => Fin.ext ?_)
  match a with
  | ⟨0, _⟩ => show win0_1.index t (0 : Fin 2) * 256 + 1 * n.val = 256 * t.val + n.val; omega
  | ⟨1, _⟩ => show win0_1.index t (1 : Fin 2) * 4096 + 1 * i.val = i.val; omega

theorem blkA_apply (c : Dev nD) (t : Fin cfg0.N) (n : Fin 256) (q : Fin 64) :
    blkA m c t (ix2 n q) = arrA m c (ix2 (tile t n) q) := by
  obtain ⟨-, -, -, -, e0, e1, -⟩ := idx_facts t
  show V m c main_v2 (((cfg0.win 2).blk t).view.emb (ix2 n q)) = V m c main_v2 (ix2 (tile t n) q)
  refine congrArg _ (funext fun a => Fin.ext ?_)
  match a with
  | ⟨0, _⟩ => show win0_2.index t (0 : Fin 2) * 256 + 1 * n.val = 256 * t.val + n.val; omega
  | ⟨1, _⟩ => show win0_2.index t (1 : Fin 2) * 64 + 1 * q.val = q.val; omega

theorem blkB_apply (c : Dev nD) (t : Fin cfg0.N) (n : Fin 256) :
    blkB m c t (ix2 (0 : Fin 1) n) = arrB m c (ix2 (0 : Fin 1) (tile t n)) := by
  obtain ⟨-, -, -, -, -, -, e0, e1, -⟩ := idx_facts t
  show V m c main_v3 (((cfg0.win 3).blk t).view.emb (ix2 (0 : Fin 1) n)) = V m c main_v3 (ix2 (0 : Fin 1) (tile t n))
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 256 + 1 * n.val = 256 * t.val + n.val; omega

theorem blkR_apply (c : Dev nD) (t : Fin cfg0.N) (q : Fin 64) (i : Fin 4096) :
    blkR m c t (ix2 q i) = arrR m c (ix2 q i) := by
  obtain ⟨-, -, -, -, -, -, -, -, e0, e1, -⟩ := idx_facts t
  show V m c main_v12 (((cfg0.win 4).blk t).view.emb (ix2 q i)) = V m c main_v12 (ix2 q i)
  refine congrArg _ (funext fun a => Fin.ext ?_)
  match a with
  | ⟨0, _⟩ => show win0_4.index t (0 : Fin 2) * 64 + 1 * q.val = q.val; omega
  | ⟨1, _⟩ => show win0_4.index t (1 : Fin 2) * 4096 + 1 * i.val = i.val; omega

/-- WHAT POINT `t` WRITES BACK is tile `t` of `GArr`. -/
theorem flushed5_eq (c : Dev nD) (t : Fin cfg0.N) :
    (dats m 0 c).flushed 5 t = ((cfg0.win 5).blk t).view.read (Elt Ideal) (GArr m c) := by
  show (cfg0.win 5).cut (grid0.coords t) ((dats m 0 c).after 5 t) = _
  rw [after0_5]
  unfold outsAt0
  rw [out_eq]
  funext j
  obtain ⟨r, n, rfl⟩ : ∃ (r : Fin 1024) (n : Fin 256), j = ix2 r n := ⟨j 0, j 1, eq_ix2 j⟩
  have he : ((cfg0.win 5).blk t).view.emb (ix2 r n) = ix2 r (tile t n) := by
    obtain ⟨-, -, -, -, -, -, -, -, -, -, e0, e1⟩ := idx_facts t
    refine funext fun a => Fin.ext ?_
    match a with
    | ⟨0, _⟩ => show win0_5.index t (0 : Fin 2) * 1024 + 1 * r.val = r.val; omega
    | ⟨1, _⟩ => show win0_5.index t (1 : Fin 2) * 256 + 1 * n.val = 256 * t.val + n.val; omega
  show bodyVal (F := Ideal) (blkX m c t) (blkW m c t) (blkA m c t) (blkB m c t) (blkR m c t) (ix2 r n)
      = GArr m c (((cfg0.win 5).blk t).view.emb (ix2 r n))
  rw [he, bodyVal_apply]
  show _ = GAt m c r (tile t n)
  unfold GAt
  simp only [blkX_apply, blkW_apply, blkA_apply, blkB_apply, blkR_apply]

/-- An index of the array is in point `t`'s tile iff each coordinate is in the tile's range on its axis. -/
theorem mem_blk5 (t : Fin cfg0.N) (i : S1024x11008.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v13).slice (win0_5.rect t)).set ↔ _
  rw [View.set_slice_whole, Rect.mem_set_unit]
  exact Iff.rfl

/-- Every entry of the array is in the tile of the point `column / 256`. -/
theorem cover5 (i : S1024x11008.Idx) :
    ∃ t : Fin cfg0.N, (cfg0.win 5).flush t = true ∧ i ∈ ((cfg0.win 5).blk t).view.set := by
  have h0 : (i 0).val < 1024 := (i 0).isLt
  have h1 : (i 1).val < 11008 := (i 1).isLt
  let t : Fin cfg0.N := ⟨(i 1).val / 256, by
    have h2 : cfg0.N = 43 := N43
    omega⟩
  obtain ⟨-, -, -, -, -, -, -, -, -, -, e0, e1⟩ := idx_facts t
  have ht : t.val = (i 1).val / 256 := rfl
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-- THE ARRAY after the run. -/
theorem final5 (c : Dev nD) : (dats m 0 c).arrAt 5 cfg0.N = GArr m c :=
  (dats m 0 c).arrAt_eq_of_cover 5 (GArr m c) (fun t _ => flushed5_eq m c t) cover5

end Cert.KernelIdeal.Gen

end
-- ==== Proof.LibHostRows.lean ====
/-
  Host layout operations and the host's row sum read at an index, for arrays of rows: a vector made a column, a
  scalar broadcast anywhere, a column broadcast along the rows, a vector made a row, a row broadcast down the
  rows, and the sum of a matrix's rows. Stated for any extents.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

/-- The host's sum over the second axis of an `a × b` array, read at row `r`: the initial value plus the sum of
    the row. -/
theorem hostReduceAdd_rows_apply {a b : ℕ} {φ : FTy} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (r : Fin a) :
    Host.reduceAdd x init h hu (ix1 r) = init ix0 + ∑ k : Fin b, x (ix2 r k) := by
  have hR : (⟨2, ![a, b]⟩ : Shape).Reduces [1] ⟨1, ![a]⟩ := ⟨h.1, Nat.one_pos, h.2⟩
  have e0 : Shape.Idx.first hu = ix0 := eq_ix0 _
  unfold Host.reduceAdd
  rw [Ideal.hostReduceAdd_def, Ideal.hostReduceAdd_single h hR, e0]
  refine congrArg (fun z => init ix0 + z) (Finset.sum_congr rfl fun k _ => congrArg x ?_)
  funext c
  match c with
  | ⟨0, _⟩ => rfl
  | ⟨1, _⟩ => rfl

/-- A vector of length `a` broadcast to an `a × 1` column reads its own entry. -/
theorem broadcastInDim_vec_col_apply {a : ℕ} {α : Type} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) fun ax => ?_
  match ax with
  | ⟨0, _⟩ =>
    show r.val = if a = 1 then 0 else r.val
    split
    · have := r.isLt; omega
    · rfl

/-- A scalar broadcast to any shape reads the scalar. -/
theorem broadcastInDim_scalar_apply {t : Shape} {α : Type} (v : (⟨0, ![]⟩ : Shape).Idx → α)
    (h : (⟨0, ![]⟩ : Shape).BroadcastsInDim t (![] : Fin 0 → Fin t.rank)) (j : t.Idx) :
    broadcastInDim t ![] h v j = v ix0 := by
  exact broadcastInDim_apply _ h v j ix0 fun ax => ax.elim0

/-- An `a × 1` column broadcast to `a × b` reads the column's entry of the row. -/
theorem broadcastInDim_col_apply {a b : ℕ} {α : Type} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- A vector of length `b` broadcast to a `1 × b` row reads its own entry. -/
theorem broadcastInDim_vec_row_apply {b : ℕ} {α : Type} (v : (⟨1, ![b]⟩ : Shape).Idx → α)
    (h : (⟨1, ![b]⟩ : Shape).BroadcastsInDim ⟨2, ![1, b]⟩ (![1] : Fin 1 → Fin 2)) (z : Fin 1) (k : Fin b) :
    broadcastInDim ⟨2, ![1, b]⟩ ![1] h v (ix2 z k) = v (ix1 k) := by
  refine broadcastInDim_apply _ h v (ix2 z k) (ix1 k) fun ax => ?_
  match ax with
  | ⟨0, _⟩ =>
    show k.val = if b = 1 then 0 else k.val
    split
    · have := k.isLt; omega
    · rfl

/-- A `1 × b` row broadcast to `a × b` reads the row's entry of the column. -/
theorem broadcastInDim_row_apply {a b : ℕ} {α : Type} (v : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if b = 1 then 0 else k.val
    split
    · have := k.isLt; omega
    · rfl

end Cert.LibHostRows

end
-- ==== Proof.KHost.lean ====
/-
  The arrays the region finds, read at an entry: the activations flattened to 1024 rows, the scales laid out as
  64 per weight row, the bias as a row, and the 64 × 4096 indicator matrix of `column / 64 = row`.
-/
import proofs.«408952_j9517647528630_3_alg».proof.Proof.Gen.KernelIdeal.Frame.Runs
import proofs.«408952_j9517647528630_3_alg».proof.Proof.Spec
import proofs.«408952_j9517647528630_3_alg».proof.Proof.LibHostRows
import Idealize.ShloMosaic.Lib.ValueIdx
import Idealize.ShloMosaic.Lib.Pipeline.Value
import Idealize.ShloMosaic.Lib.StableHlo.Run

set_option maxRecDepth 16384

noncomputable section

namespace Cert.KernelIdeal.Host

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The flattened activations as the host operations compute them: the launch array reshaped, then cast. -/
theorem x2_term (c : Dev nD) :
    (V m c main_v1 : S1024x4096.Idx → EReal)
      = (truncf (F := Ideal) .bf16
          (shapeCast S1024x4096 (m ((c : Thread nD τ).loc main_arg0) : S2x512x4096.Idx → EReal) shapeCasts_S2x512x4096_S1024x4096)
          bitsLt_bf16_f32 : S1024x4096.Idx → EReal) := by
  dsimp only [Gen.V, Gen.V0]
  simp only [Gen.hostOps0, Gen.hostOps0_1, Gen.hostOps0_2, List.flatten_cons, List.flatten_nil, List.append_nil, List.cons_append,
    List.nil_append]
  after_results
  rfl

/-- The flattened activations: row `512·p + s` is row `s` of batch `p` (the cast to bf16 is the identity). -/
theorem x2_apply (c : Dev nD) (p : Fin 2) (s : Fin 512) (i : Fin 4096) :
    (V m c main_v1 : S1024x4096.Idx → EReal) (ix2 (Cert.Spec.row p s) i)
      = (m ((c : Thread nD τ).loc main_arg0) : S2x512x4096.Idx → EReal) (ix3 p s i) := by
  rw [x2_term m c, truncf_apply]
  -- both entries sit at row-major position (512 p + s) · 4096 + i
  refine shapeCast_apply _ _ (ix2 (Cert.Spec.row p s) i) (ix3 p s i) ?_
  rw [Shape.rowMajor_val_three, Shape.rowMajor_val_two]
  show (p.val * 512 + s.val) * 4096 + i.val = (512 * p.val + s.val) * 4096 + i.val
  omega

/-- The scales as the host operations compute them: the launch vector reshaped. -/
theorem a2_term (c : Dev nD) :
    (V m c main_v2 : S11008x64.Idx → EReal)
      = (shapeCast S11008x64 (m ((c : Thread nD τ).loc main_arg2) : S704512.Idx → EReal) shapeCasts_S704512_S11008x64 :
          S11008x64.Idx → EReal) := by
  dsimp only [Gen.V, Gen.V0]
  simp only [Gen.hostOps0, Gen.hostOps0_1, Gen.hostOps0_2, List.flatten_cons, List.flatten_nil, List.append_nil, List.cons_append,
    List.nil_append]
  after_results
  rfl

/-- The scales, 64 to a weight row. -/
theorem a2_apply (c : Dev nD) (o : Fin 11008) (q : Fin 64) :
    (V m c main_v2 : S11008x64.Idx → EReal) (ix2 o q)
      = (m ((c : Thread nD τ).loc main_arg2) : S704512.Idx → EReal) (ix1 (Cert.Spec.blk o q)) := by
  rw [a2_term m c]
  -- both entries sit at row-major position 64 o + q
  refine shapeCast_apply _ _ (ix2 o q) (ix1 (Cert.Spec.blk o q)) ?_
  rw [Shape.rowMajor_val_one, Shape.rowMajor_val_two]
  show 64 * o.val + q.val = o.val * 64 + q.val
  omega

/-- The bias as the host operations compute it: the launch vector reshaped. -/
theorem b2_term (c : Dev nD) :
    (V m c main_v3 : S1x11008.Idx → EReal)
      = (shapeCast S1x11008 (m ((c : Thread nD τ).loc main_arg3) : S11008.Idx → EReal) shapeCasts_S11008_S1x11008 :
          S1x11008.Idx → EReal) := by
  dsimp only [Gen.V, Gen.V0]
  simp only [Gen.hostOps0, Gen.hostOps0_1, Gen.hostOps0_2, List.flatten_cons, List.flatten_nil, List.append_nil, List.cons_append,
    List.nil_append]
  after_results
  rfl

/-- The bias as a row. -/
theorem b2_apply (c : Dev nD) (o : Fin 11008) :
    (V m c main_v3 : S1x11008.Idx → EReal) (ix2 (0 : Fin 1) o)
      = (m ((c : Thread nD τ).loc main_arg3) : S11008.Idx → EReal) (ix1 o) := by
  rw [b2_term m c]
  -- both entries sit at row-major position o
  refine shapeCast_apply _ _ (ix2 (0 : Fin 1) o) (ix1 o) ?_
  rw [Shape.rowMajor_val_one, Shape.rowMajor_val_two]
  show o.val = 0 * 11008 + o.val
  omega

/-! ## The indicator matrix

The host makes it from the row numbers and the column numbers as 32-bit words: the columns' floor quotients by 64
(a called function: truncated quotient, signs, remainder, a correction selected where signs differ and the remainder
is not zero) are compared for equality with the row numbers, and the resulting bit is read as a real number. -/

section Words

/-- A word below 2³¹ divided by 64: no corner is met, and the signed quotient is the quotient of the values. -/
theorem divsi_64 (u : ArithUnit) (x : BitVec 32) (hx : x.toNat < 2 ^ 31) :
    IntOp.divsi u x 64#32 = BitVec.ofNat 32 (x.toNat / 64) := by
  have hcorner : ¬ IntOp.SDivCorner x 64#32 := by
    intro hc; rcases hc with hc | ⟨_, hc⟩ <;> exact absurd hc (by decide)
  have hm : x.msb = false := BitVec.msb_eq_false_iff_two_mul_lt.mpr (by omega)
  have h64 : (64 : ℕ) % 2 ^ 32 = 64 := by norm_num
  apply BitVec.eq_of_toNat_eq
  simp only [IntOp.divsi, if_neg hcorner, BitVec.sdiv_eq, hm, show (64#32 : BitVec 32).msb = false from by decide, BitVec.udiv_eq,
    BitVec.toNat_udiv, BitVec.toNat_ofNat, h64]
  omega

/-- Its signed remainder is the remainder of the values. -/
theorem remsi_64 (u : ArithUnit) (x : BitVec 32) (hx : x.toNat < 2 ^ 31) :
    IntOp.remsi u x 64#32 = BitVec.ofNat 32 (x.toNat % 64) := by
  have hcorner : ¬ IntOp.SDivCorner x 64#32 := by
    intro hc; rcases hc with hc | ⟨_, hc⟩ <;> exact absurd hc (by decide)
  have hm : x.msb = false := BitVec.msb_eq_false_iff_two_mul_lt.mpr (by omega)
  have h64 : (64 : ℕ) % 2 ^ 32 = 64 := by norm_num
  apply BitVec.eq_of_toNat_eq
  simp only [IntOp.remsi, if_neg hcorner, BitVec.srem_eq, hm, show (64#32 : BitVec 32).msb = false from by decide, BitVec.umod_eq,
    BitVec.toNat_umod, BitVec.toNat_ofNat, h64]
  omega

/-- The equality test of a word with itself is the set bit. -/
theorem cmpi_eq_self (a : BitVec 32) : IntOp.cmpi .eq a a = 1#1 := by
  unfold IntOp.cmpi
  rw [show (a == a) = true from beq_self_eq_true a]
  rfl

/-- The equality test of two different words is the cleared bit. -/
theorem cmpi_eq_of_ne {a b : BitVec 32} (h : a ≠ b) : IntOp.cmpi .eq a b = 0#1 := by
  unfold IntOp.cmpi
  rw [show (a == b) = false from beq_eq_false_iff_ne.mpr h]
  rfl

/-- The called function's floor division by 64 (whose sign is the word 1) on a word below 2³¹: the dividend is zero,
    and then so is the remainder, or it has the divisor's sign; either way the correction is not selected, and the
    result is the quotient of the values. -/
theorem floorDiv_64 (x : BitVec 32) (hx : x.toNat < 2 ^ 31) :
    Scalar.select
        (IntOp.andi (IntOp.cmpi .ne (if x = 0 then 0 else if x.msb then -1 else 1) (1#32 : BitVec 32))
          (IntOp.cmpi .ne (IntOp.remsi .host x 64#32) 0#32))
        (IntOp.subi (IntOp.divsi .host x 64#32) 1#32) (IntOp.divsi .host x 64#32)
      = BitVec.ofNat 32 (x.toNat / 64) := by
  have hm : x.msb = false := BitVec.msb_eq_false_iff_two_mul_lt.mpr (by omega)
  have hc : IntOp.andi (IntOp.cmpi .ne (if x = 0 then 0 else if x.msb then -1 else 1) (1#32 : BitVec 32))
      (IntOp.cmpi .ne (IntOp.remsi .host x 64#32) 0#32) = 0#1 := by
    by_cases h0 : x = 0
    · subst h0
      rw [remsi_64 .host _ (by decide)]
      decide
    · rw [if_neg h0, hm]
      show IntOp.andi (IntOp.cmpi .ne 1#32 1#32) _ = 0#1
      generalize IntOp.cmpi .ne (IntOp.remsi .host x 64#32) 0#32 = b
      revert b
      decide
  rw [hc, divsi_64 .host x hx]
  rfl

end Words

/-- The column numbers 0 … 4095 as a row of 32-bit words. -/
def cols : IVec S1x4096 32 := broadcastInDim S1x4096 ![1] bcast_S4096_S1x4096_1 (iotaInDim S4096 32 0)

/-- A 32-bit word spread over the row. -/
def spread (v : IVec S_ 32) : IVec S1x4096 32 := broadcastInDim S1x4096 ![] bcast_S_S1x4096 v

/-- The row of floor quotients by 64 as the called function computes it: the truncated quotient, less one where the
    signs of dividend and divisor differ and the remainder is not zero. -/
def fdiv : IVec S1x4096 32 :=
  select
    (andi (cmpi .ne (signi cols) (spread (signi (constantI S_ 32 64#32))))
      (cmpi .ne (Host.remsi cols (spread (constantI S_ 32 64#32))) (spread (constantI S_ 32 0#32))))
    (subi (Host.divsi cols (spread (constantI S_ 32 64#32))) (spread (constantI S_ 32 1#32)))
    (Host.divsi cols (spread (constantI S_ 32 64#32)))

/-- The row numbers 0 … 63 as a column of 32-bit words. -/
def rows : IVec S64x1 32 := broadcastInDim S64x1 ![0] bcast_S64_S64x1_0 (iotaInDim S64 32 0)

/-- The indicator matrix as the host operations compute it. -/
theorem rep_term (c : Dev nD) :
    (V m c main_v12 : S64x4096.Idx → EReal)
      = (uitofp (F := Ideal) .f32
          (cmpi .eq (broadcastInDim S64x4096 ![0, 1] bcast_S1x4096_S64x4096_0_1 fdiv)
            (broadcastInDim S64x4096 ![0, 1] bcast_S64x1_S64x4096_0_1 rows)) : S64x4096.Idx → EReal) := by
  dsimp only [Gen.V, Gen.V0]
  simp only [Gen.hostOps0, Gen.hostOps0_1, Gen.hostOps0_2, List.flatten_cons, List.flatten_nil, List.append_nil, List.cons_append,
    List.nil_append]
  after_results_simp
  rfl

/-- The column numbers read at a column. -/
theorem cols_apply (i : Fin 4096) : cols (ix2 (0 : Fin 1) i) = BitVec.ofNat 32 i.val :=
  Cert.LibHostRows.broadcastInDim_vec_row_apply _ _ 0 i

/-- The row numbers read at a row. -/
theorem rows_apply (q : Fin 64) : rows (ix2 q (0 : Fin 1)) = BitVec.ofNat 32 q.val :=
  Cert.LibHostRows.broadcastInDim_vec_col_apply _ _ q 0

/-- A spread word read anywhere. -/
theorem spread_apply (v : IVec S_ 32) (j : S1x4096.Idx) : spread v j = v ix0 :=
  Cert.LibHostRows.broadcastInDim_scalar_apply _ _ j

/-- The floor quotients read at a column: column i holds the word of i / 64. -/
theorem fdiv_apply (i : Fin 4096) : fdiv (ix2 (0 : Fin 1) i) = BitVec.ofNat 32 (i.val / 64) := by
  have hx : (BitVec.ofNat 32 i.val).toNat = i.val := by
    rw [BitVec.toNat_ofNat]; exact Nat.mod_eq_of_lt (by have := i.isLt; omega)
  unfold fdiv
  -- every operation is entrywise: at column i it is the scalar floor division of the word of i by 64
  simp only [select, andi, cmpi, signi, subi, Host.remsi, Host.divsi, spread_apply, constantI, cols_apply]
  refine (floorDiv_64 (BitVec.ofNat 32 i.val) (by rw [hx]; have := i.isLt; omega)).trans ?_
  rw [hx]

/-- The indicator matrix: entry `(q, i)` is one exactly when `i / 64 = q`. -/
theorem rep_apply (c : Dev nD) (q : Fin 64) (i : Fin 4096) :
    (V m c main_v12 : S64x4096.Idx → EReal) (ix2 q i) = Cert.Spec.onehot q i := by
  rw [rep_term m c]
  -- the entry is the equality test of the column's floor quotient with the row number, read as a real number
  show (((IntOp.cmpi .eq
      (broadcastInDim S64x4096 ![0, 1] bcast_S1x4096_S64x4096_0_1 fdiv (ix2 q i))
      (broadcastInDim S64x4096 ![0, 1] bcast_S64x1_S64x4096_0_1 rows (ix2 q i))).toNat : ℝ) : EReal) = _
  rw [Cert.LibHostRows.broadcastInDim_row_apply, Cert.LibHostRows.broadcastInDim_col_apply, fdiv_apply, rows_apply]
  unfold Cert.Spec.onehot
  by_cases h : i.val / 64 = q.val
  · rw [if_pos h, h, cmpi_eq_self]
    show (((1 : ℕ) : ℝ) : EReal) = 1
    rw [Nat.cast_one, EReal.coe_one]
  · -- both numbers are below 2³², so different numbers are different words
    have hne : BitVec.ofNat 32 (i.val / 64) ≠ BitVec.ofNat 32 q.val := by
      intro he
      have hn := congrArg BitVec.toNat he
      simp only [BitVec.toNat_ofNat] at hn
      have := i.isLt; have := q.isLt
      omega
    rw [if_neg h, cmpi_eq_of_ne hne]
    show (((0 : ℕ) : ℝ) : EReal) = 0
    rw [Nat.cast_zero, EReal.coe_zero]

end Cert.KernelIdeal.Host

end
-- ==== Proof.KRun.lean ====
/-
  The idealized kernel's run, read: the result is `Cert.Spec.kernelAt` of the four arguments at every entry.

  After the region the host reshapes the 1024 × 11008 array to 2 × 512 × 11008: entry `(p, s, o)` is entry
  `(512·p + s, o)` of the array. The arrays the region found are the arguments re-laid (the flattened
  activations, the scales 64 to a row, the bias row) and the indicator matrix, so that entry is `kernelAt`.
-/
import proofs.«408952_j9517647528630_3_alg».proof.Proof.KBlocks
import proofs.«408952_j9517647528630_3_alg».proof.Proof.KHost
import proofs.«408952_j9517647528630_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The result buffer after the host's reshape: the array `GArr` re-laid. -/
theorem tail_eq (c : Dev nD) :
    (Pipeline.afterTail₀ cfgs (dats m) 0 (V0 m) [hostOps1] c main_v14 : S2x512x11008.Idx → EReal)
      = shapeCast S2x512x11008 (GArr m c) shapeCasts_S1024x11008_S2x512x11008 := by
  unfold Pipeline.afterTail₀
  show StableHlo.after hostOps1 _ (Proc.devRef .tc main_v14) = _
  after_results
  have hA : (Pipeline.withArrays (cfgs 0).spec c (V0 m c) (fun w => (dats m 0 c).arrAt w (cfgs 0).N)
      (Proc.tc.devRef main_v13) : S1024x11008.Idx → EReal) = GArr m c :=
    (Pipeline.withArrays_arr spec0 launch0.win.arr_inj c _ _ 5).trans (final5 m c)
  funext i
  show shapeCast S2x512x11008 (Pipeline.withArrays (cfgs 0).spec c (V0 m c) (fun w => (dats m 0 c).arrAt w (cfgs 0).N)
      (Proc.tc.devRef main_v13)) shapeCasts_S1024x11008_S2x512x11008 i = _
  rw [hA]

/-- The reshape read at an entry: `(p, s, o)` of the result is `(512·p + s, o)` of the array. -/
theorem reshape_apply (G : S1024x11008.Idx → EReal) (p : Fin 2) (s : Fin 512) (o : Fin 11008) :
    shapeCast S2x512x11008 G shapeCasts_S1024x11008_S2x512x11008 (ix3 p s o) = G (ix2 (Cert.Spec.row p s) o) := by
  refine shapeCast_apply G _ (ix3 p s o) (ix2 (Cert.Spec.row p s) o) ?_
  rw [Shape.rowMajor_val_two, Shape.rowMajor_val_three]
  show (512 * p.val + s.val) * 11008 + o.val = (p.val * 512 + s.val) * 11008 + o.val
  omega

/-- Entry `(512·p + s, o)` of the array, over the four arguments: the region's arrays are the arguments re-laid
    and the indicator matrix. -/
theorem GAt_eq (c : Dev nD) (p : Fin 2) (s : Fin 512) (o : Fin 11008) :
    GAt m c (Cert.Spec.row p s) o
      = Cert.Spec.kernelAt (m ((c : Thread nD τ).loc main_arg0)) (m ((c : Thread nD τ).loc main_arg1)) (m ((c : Thread nD τ).loc main_arg2)) (m ((c : Thread nD τ).loc main_arg3)) p s o := by
  have hW : arrW m c = m ((c : Thread nD τ).loc main_arg1) := V_main_arg1 m c
  unfold GAt Cert.Spec.kernelAt
  refine congrArg₂ (· + ·) (Finset.sum_congr rfl fun k _ => Finset.sum_congr rfl fun j _ => ?_)
    (Cert.KernelIdeal.Host.b2_apply m c o)
  refine congrArg₂ (· * ·) (Cert.KernelIdeal.Host.x2_apply m c p s (Cert.Spec.col k j))
    (congrArg₂ (· * ·) (congrArg Cert.Spec.tree (congrFun hW _))
      (Finset.sum_congr rfl fun q _ => congrArg₂ (· * ·) (Cert.KernelIdeal.Host.a2_apply m c o q)
        (Cert.KernelIdeal.Host.rep_apply m c q (Cert.Spec.col k j))))

/-- THE RUN, READ: every weakly fair execution ends with the result at `kernelAt` of the arguments, entry by
    entry, and the arguments unchanged. -/
theorem kernel_run : θ_run defs (onTc (τ := τ) (main (F := Ideal))) ⟨m, fun _ => 0, ρ⟩ (fun r => ∀ c : Dev nD,
      r.2.mem ((c : Thread nD τ).loc main_v14)
          = (fun y : S2x512x11008.Idx => Cert.Spec.kernelAt (m ((c : Thread nD τ).loc main_arg0)) (m ((c : Thread nD τ).loc main_arg1)) (m ((c : Thread nD τ).loc main_arg2)) (m ((c : Thread nD τ).loc main_arg3)) (y 0) (y 1) (y 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨
      (((h c).2 main_v14 (Pipeline.mem_restRefs_of main_v14 (by decide) (by decide))).trans (tail_eq m c)).trans (by
        funext y
        obtain ⟨p, s, o, rfl⟩ : ∃ (p : Fin 2) (s : Fin 512) (o : Fin 11008), y = ix3 p s o := ⟨y 0, y 1, y 2, eq_ix3 y⟩
        rw [reshape_apply]
        exact GAt_eq m c p s o),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Gen

end
-- ==== Proof.RefRun.lean ====
/-
  The reference program's run.

  The reference has no kernel: its @main is a straight line of 21 host operations on whole arrays. This
  module lists them, shows @main is that list run in order, and reads the final contents of the result
  buffer back as ONE term of the four argument arrays, `refTerm x w a b`:

    * the index array `w` with a negative entry counted from the end of the 16-entry table (`normIdx`),
    * the table looked up at those indices (`codeTerm`),
    * the looked-up values regrouped into 704512 blocks of 64, each block multiplied by its scale, and
      regrouped back into the 11008 × 4096 weight (`weightTerm`),
    * the activation contracted with the weight along the 4096 columns, plus the bias spread over the
      2 × 512 rows (`refTerm`).

  Every weakly fair execution of @main terminates with the result buffer at `refTerm` of the arguments'
  launch contents and the four arguments unchanged.
-/
import proofs.«408952_j9517647528630_3_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The composed term -/

/-- The 16-entry table of codebook values, as the program's constant holds it. -/
def table : S16.Idx → EReal := fun i => FloatOps.ofBits (F := Ideal) .f32 (lit0 (S16.rowMajor i))

/-- The index array with a negative entry counted from the end: `w + 16` where `w < 0`, else `w`. -/
def normIdx (w : S11008x4096.Idx → BitVec 32) : S11008x4096.Idx → BitVec 32 :=
  select (cmpi .slt w (broadcastInDim S11008x4096 ![] bcast_S_S11008x4096 (constantI S_ 32 0#32)))
    (addi w (broadcastInDim S11008x4096 ![] bcast_S_S11008x4096 (constantI S_ 32 16#32))) w

/-- The table looked up at the normalised indices (a gather along the table's one axis). -/
def codeTerm (w : S11008x4096.Idx → BitVec 32) : S11008x4096.Idx → EReal :=
  Host.gather gather_S16_S11008x4096x1_S11008x4096_n_0_n_n_0_2_1 table
    (broadcastInDim S11008x4096x1 ![0, 1] bcast_S11008x4096_S11008x4096x1_0_1 (normIdx w))

/-- The dequantised weight: the looked-up values in blocks of 64, each block times its scale. -/
def weightTerm (w : S11008x4096.Idx → BitVec 32) (a : S704512.Idx → EReal) : S11008x4096.Idx → EReal :=
  shapeCast S11008x4096
    (mulf (F := Ideal) (φ := .f32) (shapeCast S704512x64 (codeTerm w) shapeCasts_S11008x4096_S704512x64)
      (broadcastInDim S704512x64 ![0, 1] bcast_S704512x1_S704512x64_0_1 (shapeCast S704512x1 a shapeCasts_S704512_S704512x1)))
    shapeCasts_S704512x64_S11008x4096

/-- The whole reference: the activation contracted with the dequantised weight, plus the bias. -/
def refTerm (x : S2x512x4096.Idx → EReal) (w : S11008x4096.Idx → BitVec 32) (a : S704512.Idx → EReal) (b : S11008.Idx → EReal) :
    S2x512x11008.Idx → EReal :=
  addf (F := Ideal) (φ := .f32)
    (Host.dotGeneral (F := Ideal) (φ₁ := .f32) (φ₂ := .f32) dot_S2x512x4096_S11008x4096_S2x512x11008_2_1_01_0_n_n none x (weightTerm w a))
    (broadcastInDim S2x512x11008 ![0, 1, 2] bcast_S1x1x11008_S2x512x11008_0_1_2 (broadcastInDim S1x1x11008 ![2] bcast_S11008_S1x1x11008_2 b))

/-! ## The operations and the run -/

variable {F : FTy → Type} [FloatOps F]

/-- @main's 21 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S11008x4096 ![] bcast_S_S11008x4096 : (⟨S_, .i32⟩ : BufTy).Contents (Elt F) → (⟨S11008x4096, .i32⟩ : BufTy).Contents (Elt F)),
    binary main_arg1 main_v0 main_v1 (cmpi .slt : (⟨S11008x4096, .i32⟩ : BufTy).Contents (Elt F) → (⟨S11008x4096, .i32⟩ : BufTy).Contents (Elt F) → (⟨S11008x4096, .i1⟩ : BufTy).Contents (Elt F)),
    nullary main_c_0 (constantI S_ 32 16#32),
    unary main_c_0 main_v2 (broadcastInDim S11008x4096 ![] bcast_S_S11008x4096 : (⟨S_, .i32⟩ : BufTy).Contents (Elt F) → (⟨S11008x4096, .i32⟩ : BufTy).Contents (Elt F)),
    binary main_arg1 main_v2 main_v3 (addi : (⟨S11008x4096, .i32⟩ : BufTy).Contents (Elt F) → (⟨S11008x4096, .i32⟩ : BufTy).Contents (Elt F) → (⟨S11008x4096, .i32⟩ : BufTy).Contents (Elt F)),
    ternary main_v1 main_v3 main_arg1 main_v4 (select : (⟨S11008x4096, .i1⟩ : BufTy).Contents (Elt F) → (⟨S11008x4096, .i32⟩ : BufTy).Contents (Elt F) → (⟨S11008x4096, .i32⟩ : BufTy).Contents (Elt F) → (⟨S11008x4096, .i32⟩ : BufTy).Contents (Elt F)),
    unary main_v4 main_v5 (broadcastInDim S11008x4096x1 ![0, 1] bcast_S11008x4096_S11008x4096x1_0_1 : (⟨S11008x4096, .i32⟩ : BufTy).Contents (Elt F) → (⟨S11008x4096x1, .i32⟩ : BufTy).Contents (Elt F)),
    binary main_cst main_v5 main_v6 ((fun x i => Host.gather gather_S16_S11008x4096x1_S11008x4096_n_0_n_n_0_2_1 x i) : (⟨S16, .f32⟩ : BufTy).Contents (Elt F) → (⟨S11008x4096x1, .i32⟩ : BufTy).Contents (Elt F) → (⟨S11008x4096, .f32⟩ : BufTy).Contents (Elt F)),
    reshape main_arg2 main_v7 rfl shapeCasts_S704512_S704512x1,
    reshape main_v6 main_v8 rfl shapeCasts_S11008x4096_S704512x64,
    unary main_v7 main_v9 (broadcastInDim S704512x64 ![0, 1] bcast_S704512x1_S704512x64_0_1 : (⟨S704512x1, .f32⟩ : BufTy).Contents (Elt F) → (⟨S704512x64, .f32⟩ : BufTy).Contents (Elt F)),
    binary main_v8 main_v9 main_v10 (mulf : (⟨S704512x64, .f32⟩ : BufTy).Contents (Elt F) → (⟨S704512x64, .f32⟩ : BufTy).Contents (Elt F) → (⟨S704512x64, .f32⟩ : BufTy).Contents (Elt F)),
    reshape main_v10 main_v11 rfl shapeCasts_S704512x64_S11008x4096,
    binary main_arg0 main_v11 main_v12 ((fun l r => Host.dotGeneral dot_S2x512x4096_S11008x4096_S2x512x11008_2_1_01_0_n_n none l r) : (⟨S2x512x4096, .f32⟩ : BufTy).Contents (Elt F) → (⟨S11008x4096, .f32⟩ : BufTy).Contents (Elt F) → (⟨S2x512x11008, .f32⟩ : BufTy).Contents (Elt F)),
    unary main_arg3 main_v13 (broadcastInDim S1x1x11008 ![2] bcast_S11008_S1x1x11008_2 : (⟨S11008, .f32⟩ : BufTy).Contents (Elt F) → (⟨S1x1x11008, .f32⟩ : BufTy).Contents (Elt F)),
    unary main_v13 main_v14 (broadcastInDim S2x512x11008 ![0, 1, 2] bcast_S1x1x11008_S2x512x11008_0_1_2 : (⟨S1x1x11008, .f32⟩ : BufTy).Contents (Elt F) → (⟨S2x512x11008, .f32⟩ : BufTy).Contents (Elt F)),
    binary main_v12 main_v14 main_v15 (addf : (⟨S2x512x11008, .f32⟩ : BufTy).Contents (Elt F) → (⟨S2x512x11008, .f32⟩ : BufTy).Contents (Elt F) → (⟨S2x512x11008, .f32⟩ : BufTy).Contents (Elt F)) ]

/-- @main is its operations run in order. -/
theorem main_eq (c : Dev nD) : main (F := F) c = seq ops := rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches tensor values of @main only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., reshape_bufs_sub ..,
    unary_bufs_sub .., binary_bufs_sub .., reshape_bufs_sub .., binary_bufs_sub .., unary_bufs_sub .., unary_bufs_sub ..,
    binary_bufs_sub ..⟩

/-- On every device, from any memory with zero counters: every weakly fair execution of @main terminates with
    the result buffer at `refTerm` of the four arguments' launch contents, and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v15).trans (by after_results; rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.RefValue

end
-- ==== Proof.RefRead.lean ====
/-
  The reference program's result is the one-contraction arrangement `Cert.Spec.out`.

  `refTerm x w a b` is the reference's operations composed; this module reads it at an output entry
  `(p, s, o)`, one operation at a time from the outside in:

    * the final sum is entrywise, and the bias spread over the 2 × 512 rows reads `b o`;
    * the contraction along the 4096 columns is `∑ i, x (p, s, i) · W (o, i)`;
    * entry `(o, i)` of the weight `W` sits at row-major position `4096·o + i`, hence in block
      `(4096·o + i) / 64` at place `(4096·o + i) % 64` of the 704512 × 64 regrouping, where the
      looked-up value is multiplied by that block's scale;
    * the lookup reads the 16-entry table at the index counted from the end when negative and then
      clamped into the table, and the table's entry `n` is codebook value `n`.

  What is left is `Cert.Spec.refAt` term for term. The run of the reference then ends at `Cert.Spec.out`.
-/
import proofs.«408952_j9517647528630_3_alg».proof.Proof.RefRun
import proofs.«408952_j9517647528630_3_alg».proof.Proof.Spec
import proofs.«408952_j9517647528630_3_alg».proof.Proof.LibHostRows
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.TcCoe Idealize.SL.Sem Cert.ReferenceIdeal
open Cert.ReferenceIdeal.Gen Idealize.ShloMosaic.ValueIdx

/-! ## The bias spread over the rows -/

/-- A vector of length `c` placed on the last axis of a `1 × 1 × c` array reads its own entry. -/
theorem broadcastInDim_vec_last_apply {c : ℕ} {α : Type} (v : (⟨1, ![c]⟩ : Shape).Idx → α)
    (h : (⟨1, ![c]⟩ : Shape).BroadcastsInDim ⟨3, ![1, 1, c]⟩ (![2] : Fin 1 → Fin 3)) (z z' : Fin 1) (o : Fin c) :
    broadcastInDim ⟨3, ![1, 1, c]⟩ ![2] h v (ix3 z z' o) = v (ix1 o) := by
  refine broadcastInDim_apply _ h v (ix3 z z' o) (ix1 o) fun ax => ?_
  match ax with
  | ⟨0, _⟩ =>
    show o.val = if c = 1 then 0 else o.val
    split
    · have := o.isLt; omega
    · rfl

/-- A `1 × 1 × c` array spread over `a × b` rows reads its entry of the last coordinate. -/
theorem broadcastInDim_last_rows_apply {a b c : ℕ} {α : Type} (v : (⟨3, ![1, 1, c]⟩ : Shape).Idx → α)
    (h : (⟨3, ![1, 1, c]⟩ : Shape).BroadcastsInDim ⟨3, ![a, b, c]⟩ (![0, 1, 2] : Fin 3 → Fin 3))
    (p : Fin a) (s : Fin b) (o : Fin c) :
    broadcastInDim ⟨3, ![a, b, c]⟩ ![0, 1, 2] h v (ix3 p s o) = v (ix3 (0 : Fin 1) (0 : Fin 1) o) := by
  refine broadcastInDim_apply _ h v (ix3 p s o) (ix3 (0 : Fin 1) (0 : Fin 1) o) fun ax => ?_
  match ax with
  | ⟨0, _⟩ => rfl
  | ⟨1, _⟩ => rfl
  | ⟨2, _⟩ =>
    show o.val = if c = 1 then 0 else o.val
    split
    · have := o.isLt; omega
    · rfl

/-! ## The contraction

The activation's axis 2 is contracted with the weight's axis 1; the result's axes are the activation's axes
0 and 1, then the weight's axis 0. -/

/-- The contraction's dimension numbers. -/
abbrev contraction := dot_S2x512x4096_S11008x4096_S2x512x11008_2_1_01_0_n_n

/-- The activation is read at the result's first coordinate on its axis 0. -/
theorem lhs_0 (j : S2x512x11008.Idx) (k : contraction.contr.Idx) : (contraction.lhsIdx j k 0).val = (j 0).val := by
  unfold DotDims.lhsIdx
  rw [dif_neg (show ¬ (0 : Fin S2x512x4096.rank) ∈ contraction.lhsBatch by decide),
    dif_pos (show (0 : Fin S2x512x4096.rank) ∈ contraction.lhsNonContracting by decide)]
  rfl

/-- The activation is read at the result's second coordinate on its axis 1. -/
theorem lhs_1 (j : S2x512x11008.Idx) (k : contraction.contr.Idx) : (contraction.lhsIdx j k 1).val = (j 1).val := by
  unfold DotDims.lhsIdx
  rw [dif_neg (show ¬ (1 : Fin S2x512x4096.rank) ∈ contraction.lhsBatch by decide),
    dif_pos (show (1 : Fin S2x512x4096.rank) ∈ contraction.lhsNonContracting by decide)]
  rfl

/-- The activation is read at the contracted coordinate on its axis 2. -/
theorem lhs_2 (j : S2x512x11008.Idx) (k : contraction.contr.Idx) :
    (contraction.lhsIdx j k 2).val = (k ⟨0, Nat.one_pos⟩).val :=
  contraction.lhsIdx_val_of_single (cl := 2) rfl j k

/-- The weight is read at the result's third coordinate on its axis 0. -/
theorem rhs_0 (j : S2x512x11008.Idx) (k : contraction.contr.Idx) : (contraction.rhsIdx j k 0).val = (j 2).val := by
  unfold DotDims.rhsIdx
  rw [dif_neg (show ¬ (0 : Fin S11008x4096.rank) ∈ contraction.rhsBatch by decide),
    dif_pos (show (0 : Fin S11008x4096.rank) ∈ contraction.rhsNonContracting by decide)]
  rfl

/-- The weight is read at the contracted coordinate on its axis 1. -/
theorem rhs_1 (j : S2x512x11008.Idx) (k : contraction.contr.Idx) :
    (contraction.rhsIdx j k 1).val = (k ⟨0, Nat.one_pos⟩).val :=
  contraction.rhsIdx_val_of_single (cr := 1) rfl j k

/-- The contraction read at `(p, s, o)`: the sum over the 4096 columns of activation times weight. -/
theorem dot_apply (x : FVec Ideal S2x512x4096 .f32) (W : FVec Ideal S11008x4096 .f32) (p : Fin 2) (s : Fin 512) (o : Fin 11008) :
    Host.dotGeneral (F := Ideal) contraction none x W (ix3 p s o) = ∑ i : Fin 4096, x (ix3 p s i) * W (ix2 o i) := by
  show FloatOps.dotGeneral _ none _ x W (ix3 p s o) = _
  rw [Ideal.dotGeneral_apply, ← Equiv.sum_comp (contrEquiv1 contraction 4096 rfl rfl).symm]
  refine Finset.sum_congr rfl fun i _ => ?_
  have ci := contrEquiv1_symm_val contraction 4096 rfl rfl i
  have l : contraction.lhsIdx (ix3 p s o) ((contrEquiv1 contraction 4096 rfl rfl).symm i) = ix3 p s i := by
    funext ax; apply Fin.ext
    match ax with
    | ⟨0, _⟩ => exact lhs_0 _ _
    | ⟨1, _⟩ => exact lhs_1 _ _
    | ⟨2, _⟩ => exact (lhs_2 _ _).trans ci
  have r : contraction.rhsIdx (ix3 p s o) ((contrEquiv1 contraction 4096 rfl rfl).symm i) = ix2 o i := by
    funext ax; apply Fin.ext
    match ax with
    | ⟨0, _⟩ => exact rhs_0 _ _
    | ⟨1, _⟩ => exact (rhs_1 _ _).trans ci
  rw [l, r]

/-! ## The regroupings into blocks of 64 and back

Entry `(o, i)` of an 11008 × 4096 array and entry `(q, r)` of a 704512 × 64 array are the same element under a
regrouping exactly when `4096·o + i = 64·q + r`, that is `q = (4096·o + i) / 64` and `r = (4096·o + i) % 64`. -/

/-- The place of weight entry `(o, i)` inside its block of 64. -/
def laneOf (o : Fin 11008) (i : Fin 4096) : Fin 64 := ⟨(4096 * o.val + i.val) % 64, Nat.mod_lt _ (by decide)⟩

/-- The blocks regrouped into the weight's shape: entry `(o, i)` is place `laneOf o i` of block `blkOf o i`. -/
theorem unblock_apply {α : Type} (M : S704512x64.Idx → α) (o : Fin 11008) (i : Fin 4096) :
    shapeCast S11008x4096 M shapeCasts_S704512x64_S11008x4096 (ix2 o i) = M (ix2 (Cert.Spec.blkOf o i) (laneOf o i)) := by
  refine shapeCast_apply M _ (ix2 o i) _ ?_
  rw [Shape.rowMajor_val_two, Shape.rowMajor_val_two]
  show (4096 * o.val + i.val) / 64 * 64 + (4096 * o.val + i.val) % 64 = o.val * 4096 + i.val
  omega

/-- The weight's shape regrouped into blocks: place `laneOf o i` of block `blkOf o i` is entry `(o, i)`. -/
theorem block_apply {α : Type} (N : S11008x4096.Idx → α) (o : Fin 11008) (i : Fin 4096) :
    shapeCast S704512x64 N shapeCasts_S11008x4096_S704512x64 (ix2 (Cert.Spec.blkOf o i) (laneOf o i)) = N (ix2 o i) := by
  refine shapeCast_apply N _ _ (ix2 o i) ?_
  rw [Shape.rowMajor_val_two, Shape.rowMajor_val_two]
  show o.val * 4096 + i.val = (4096 * o.val + i.val) / 64 * 64 + (4096 * o.val + i.val) % 64
  omega

/-- The scales as a column: row `q` holds scale `q`. -/
theorem column_apply {α : Type} (a : S704512.Idx → α) (q : Fin 704512) :
    shapeCast S704512x1 a shapeCasts_S704512_S704512x1 (ix2 q (0 : Fin 1)) = a (ix1 q) := by
  refine shapeCast_apply a _ _ (ix1 q) ?_
  rw [Shape.rowMajor_val_one, Shape.rowMajor_val_two]
  show q.val = q.val * 1 + 0
  omega

/-! ## The table lookup -/

/-- The lookup read at `(o, i)`: the table at the index array's entry `(o, i)`, read signed and clamped into
    `[0, 15]`. -/
theorem lookup_apply {α : Type} (T : S16.Idx → α) (I : S11008x4096.Idx → BitVec 32) (o : Fin 11008) (i : Fin 4096) :
    Host.gather gather_S16_S11008x4096x1_S11008x4096_n_0_n_n_0_2_1 T
        (broadcastInDim S11008x4096x1 ![0, 1] bcast_S11008x4096_S11008x4096x1_0_1 I) (ix2 o i)
      = T (ix1 ⟨min (I (ix2 o i)).toInt.toNat 15, by omega⟩) := by
  have hI : broadcastInDim S11008x4096x1 ![0, 1] bcast_S11008x4096_S11008x4096x1_0_1 I (takeIdx (ix2 o i)) = I (ix2 o i) := by
    refine broadcastInDim_apply _ _ I _ (ix2 o i) fun ax => ?_
    match ax with
    | ⟨0, _⟩ => rfl
    | ⟨1, _⟩ => rfl
  show Host.gather (takeDims 16 11008 4096 gather_S16_S11008x4096x1_S11008x4096_n_0_n_n_0_2_1_wf) T _ (ix2 o i) = _
  refine (gather_take_apply (by decide) _ T _ (ix2 o i)).trans (congrArg T (congrArg ix1 (Fin.ext ?_)))
  show min _ (16 - 1) = min _ 15
  rw [hI]

/-- Entry `n` of the table is codebook value `n`: the program's constant lists the same sixteen words. -/
theorem table_apply (n : Fin 16) : table (ix1 n) = Cert.Spec.code n := by
  show Ideal.ofBits .f32 (lit0 (S16.rowMajor (ix1 n))) = Ideal.ofBits .f32 (Cert.Spec.word n)
  have e : S16.rowMajor (ix1 n) = n := Fin.ext (Shape.rowMajor_val_one _)
  have hw : lit0 n = Cert.Spec.word n := rfl
  rw [e, hw]

/-- The normalised index array, entrywise: `Cert.Spec.norm` of the index. -/
theorem normIdx_apply (w : S11008x4096.Idx → BitVec 32) (y : S11008x4096.Idx) : normIdx w y = Cert.Spec.norm (w y) := rfl

/-- The looked-up value at `(o, i)` is the table lookup `Cert.Spec.refCode` of the index there. -/
theorem code_apply (w : S11008x4096.Idx → BitVec 32) (o : Fin 11008) (i : Fin 4096) :
    codeTerm w (ix2 o i) = Cert.Spec.refCode (w (ix2 o i)) := by
  unfold codeTerm
  rw [lookup_apply, table_apply]
  rfl

/-! ## The weight, and the whole -/

/-- The dequantised weight at `(o, i)`: the looked-up value times the scale of flat block `(4096·o + i) / 64`. -/
theorem weight_apply (w : S11008x4096.Idx → BitVec 32) (a : S704512.Idx → EReal) (o : Fin 11008) (i : Fin 4096) :
    weightTerm w a (ix2 o i) = Cert.Spec.refCode (w (ix2 o i)) * a (ix1 (Cert.Spec.blkOf o i)) := by
  unfold weightTerm
  rw [unblock_apply, mulf_apply, block_apply, Cert.LibHostRows.broadcastInDim_col_apply, column_apply, code_apply]

/-- The reference's term at `(p, s, o)` is the one-contraction arrangement there. -/
theorem refTerm_apply (x : S2x512x4096.Idx → EReal) (w : S11008x4096.Idx → BitVec 32) (a : S704512.Idx → EReal)
    (b : S11008.Idx → EReal) (p : Fin 2) (s : Fin 512) (o : Fin 11008) :
    refTerm x w a b (ix3 p s o) = Cert.Spec.refAt x w a b p s o := by
  unfold refTerm Cert.Spec.refAt
  rw [addf_apply, dot_apply, broadcastInDim_last_rows_apply, broadcastInDim_vec_last_apply]
  refine congrArg (· + b (ix1 o)) (Finset.sum_congr rfl fun i _ => ?_)
  rw [weight_apply]

/-- The reference's term is `Cert.Spec.out`. -/
theorem refTerm_eq (x : S2x512x4096.Idx → EReal) (w : S11008x4096.Idx → BitVec 32) (a : S704512.Idx → EReal)
    (b : S11008.Idx → EReal) : refTerm x w a b = Cert.Spec.out x w a b := by
  funext y
  obtain ⟨p, s, o, rfl⟩ : ∃ (p : Fin 2) (s : Fin 512) (o : Fin 11008), y = ix3 p s o := ⟨y 0, y 1, y 2, eq_ix3 y⟩
  exact refTerm_apply x w a b p s o

/-! ## The run -/

/-- On every device, from any memory with zero counters: every weakly fair execution of the reference terminates
    with its result at `Cert.Spec.out` of the four arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
          = Cert.Spec.out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (refTerm_eq _ _ _ _), (h c).2⟩) (run_term m ρ)

end Cert.ReferenceIdeal.RefValue

end
-- ==== Proof.lean ====
/-
  The certificate of a 4-bit-codebook linear layer: `x · Wᵀ + bias`, where entry (o, i) of W is a codebook value,
  chosen by the integer index array, times the scale of its block of 64 consecutive entries.

  The kernel tiles the 11008 weight rows by 256 and, per tile, contracts the 4096 columns in eight chunks of 512:
  it decodes an index by a four-level selection on its low four bits, obtains each column's scale by multiplying
  the tile's 64-per-row scales with the indicator matrix of `column / 64`, rounds operands to bf16 (nothing, over
  the extended reals), and accumulates the chunk products from zero before adding the bias. The reference looks
  the code up in the table (counting a negative index from the end and clamping), scales block by block over the
  flattened weight, and contracts all 4096 columns at once.

  Over the extended reals the two results are equal entry by entry wherever every index is a codebook index,
  `0 ≤ index < 16` — the precondition's added conjunct —: there the selection and the lookup agree, the indicator
  sum picks out the block's scale, and regrouping a sum needs only that addition is associative and commutative.
  The finiteness of the float inputs is not used.

  The three frames: the two kernel programs' are the generated frame certificates; the reference's is its run
  with the result dropped. The idealization rewrote nothing, so `preserves` asks nothing.
-/
import proofs.«408952_j9517647528630_3_alg».proof.Defs
import proofs.«408952_j9517647528630_3_alg».proof.Proof.Gen.Kernel
import proofs.«408952_j9517647528630_3_alg».proof.Proof.Gen.Kernel.Frame
import proofs.«408952_j9517647528630_3_alg».proof.Proof.Gen.KernelIdeal
import proofs.«408952_j9517647528630_3_alg».proof.Proof.Gen.KernelIdeal.Frame
import proofs.«408952_j9517647528630_3_alg».proof.Proof.Gen.ReferenceIdeal
import proofs.«408952_j9517647528630_3_alg».proof.Proof.Gen.Pre_finite_inputs
import proofs.«408952_j9517647528630_3_alg».proof.Proof.Spec
import proofs.«408952_j9517647528630_3_alg».proof.Proof.Algebra
import proofs.«408952_j9517647528630_3_alg».proof.Proof.PreDecode
import proofs.«408952_j9517647528630_3_alg».proof.Proof.KRun
import proofs.«408952_j9517647528630_3_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Both idealized programs end at `Cert.Spec.out` of the arguments: the reference's run states it; the kernel's
    run ends at the chunked arrangement, which is the same function because the precondition makes every index a
    codebook index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Gen.kernel_run m ρ)
    have hw := Cert.PreDecode.idx_range _ _ _ _ (hpre c)
    funext y
    exact Cert.Spec.kernelAt_eq_refAt _ _ _ _ hw (y 0) (y 1) (y 2)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
